-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500 : Shape := ⟨1, ![500]⟩
abbrev S128x200x304 : Shape := ⟨3, ![128, 200, 304]⟩
abbrev S_ : Shape := ⟨0, ![]⟩

class Facts : Prop where
  bcast_S_S500 : S_.BroadcastsInDim S500 (![] : Fin 0 → Fin S500.rank)
  reducesTo_S500_S_d0 : S500.ReducesTo [0] S_
  h_S_ : 0 < S_.numel
  bcast_S_S128x200x304 : S_.BroadcastsInDim S128x200x304 (![] : Fin 0 → Fin S128x200x304.rank)
  reducesTo_S128x200x304_S_d0_1_2 : S128x200x304.ReducesTo [0, 1, 2] S_

variable [Facts]

def fn_part1 {F : FTy → Type} [FloatOps F] (main_arg4 : IVec S500 32) (main_arg5 : IVec S500 32) (main_v13 : IVec S_ 1) (main_v15 : IVec S500 1) (main_c_5 : IVec S_ 1) : IVec S_ 1 :=
  let main_v16 : IVec S_ 1 := (fun x v => Host.reduce IntOp.andi x v reducesTo_S500_S_d0 h_S_) main_v15 main_c_5
  let main_v17 : IVec S_ 1 := andi main_v13 main_v16
  let main_c_6 : IVec S_ 32 := constantI S_ 32 128#32
  let main_v18 : IVec S500 32 := broadcastInDim S500 ![] bcast_S_S500 main_c_6
  let main_v19 : IVec S500 1 := cmpi .slt main_arg4 main_v18
  let main_c_7 : IVec S_ 1 := constantI S_ 1 1#1
  let main_v20 : IVec S_ 1 := (fun x v => Host.reduce IntOp.andi x v reducesTo_S500_S_d0 h_S_) main_v19 main_c_7
  let main_v21 : IVec S_ 1 := andi main_v17 main_v20
  let main_c_8 : IVec S_ 32 := constantI S_ 32 0#32
  let main_v22 : IVec S500 32 := broadcastInDim S500 ![] bcast_S_S500 main_c_8
  let main_v23 : IVec S500 1 := cmpi .sge main_arg5 main_v22
  let main_c_9 : IVec S_ 1 := constantI S_ 1 1#1
  let main_v24 : IVec S_ 1 := (fun x v => Host.reduce IntOp.andi x v reducesTo_S500_S_d0 h_S_) main_v23 main_c_9
  let main_v25 : IVec S_ 1 := andi main_v21 main_v24
  let main_c_10 : IVec S_ 32 := constantI S_ 32 128#32
  let main_v26 : IVec S500 32 := broadcastInDim S500 ![] bcast_S_S500 main_c_10
  let main_v27 : IVec S500 1 := cmpi .slt main_arg5 main_v26
  let main_c_11 : IVec S_ 1 := constantI S_ 1 1#1
  let main_v28 : IVec S_ 1 := (fun x v => Host.reduce IntOp.andi x v reducesTo_S500_S_d0 h_S_) main_v27 main_c_11
  let main_v29 : IVec S_ 1 := andi main_v25 main_v28
  main_v29

def fn {F : FTy → Type} [FloatOps F] (main_arg0 : FVec F S500 .f32) (main_arg1 : FVec F S128x200x304 .f32) (main_arg2 : FVec F S128x200x304 .f32) (main_arg3 : IVec S500 32) (main_arg4 : IVec S500 32) (main_arg5 : IVec S500 32) : IVec S_ 1 :=
  let main_v0 : FVec F S500 .f32 := Host.absf main_arg0
  let main_cst : FVec F S_ .f32 := constant S_ .f32 0x7F800000#32
  let main_v1 : FVec F S500 .f32 := broadcastInDim S500 ![] bcast_S_S500 main_cst
  let main_v2 : IVec S500 1 := cmpf .olt main_v0 main_v1
  let main_c : IVec S_ 1 := constantI S_ 1 1#1
  let main_v3 : IVec S_ 1 := (fun x v => Host.reduce IntOp.andi x v reducesTo_S500_S_d0 h_S_) main_v2 main_c
  let main_v4 : FVec F S128x200x304 .f32 := Host.absf main_arg1
  let main_cst_0 : FVec F S_ .f32 := constant S_ .f32 0x7F800000#32
  let main_v5 : FVec F S128x200x304 .f32 := broadcastInDim S128x200x304 ![] bcast_S_S128x200x304 main_cst_0
  let main_v6 : IVec S128x200x304 1 := cmpf .olt main_v4 main_v5
  let main_c_1 : IVec S_ 1 := constantI S_ 1 1#1
  let main_v7 : IVec S_ 1 := (fun x v => Host.reduce IntOp.andi x v reducesTo_S128x200x304_S_d0_1_2 h_S_) main_v6 main_c_1
  let main_v8 : IVec S_ 1 := andi main_v3 main_v7
  let main_v9 : FVec F S128x200x304 .f32 := Host.absf main_arg2
  let main_cst_2 : FVec F S_ .f32 := constant S_ .f32 0x7F800000#32
  let main_v10 : FVec F S128x200x304 .f32 := broadcastInDim S128x200x304 ![] bcast_S_S128x200x304 main_cst_2
  let main_v11 : IVec S128x200x304 1 := cmpf .olt main_v9 main_v10
  let main_c_3 : IVec S_ 1 := constantI S_ 1 1#1
  let main_v12 : IVec S_ 1 := (fun x v => Host.reduce IntOp.andi x v reducesTo_S128x200x304_S_d0_1_2 h_S_) main_v11 main_c_3
  let main_v13 : IVec S_ 1 := andi main_v8 main_v12
  let main_c_4 : IVec S_ 32 := constantI S_ 32 0#32
  let main_v14 : IVec S500 32 := broadcastInDim S500 ![] bcast_S_S500 main_c_4
  let main_v15 : IVec S500 1 := cmpi .sge main_arg4 main_v14
  let main_c_5 : IVec S_ 1 := constantI S_ 1 1#1
  fn_part1 (F := F) main_arg4 main_arg5 main_v13 main_v15 main_c_5
-- ==== Kernel.lean ====
abbrev S500 : Shape := ⟨1, ![500]⟩
abbrev S128x200x304 : Shape := ⟨3, ![128, 200, 304]⟩
abbrev S500x1 : Shape := ⟨2, ![500, 1]⟩
abbrev S1x128 : Shape := ⟨2, ![1, 128]⟩
abbrev S500x128 : Shape := ⟨2, ![500, 128]⟩
abbrev S128x60800 : Shape := ⟨2, ![128, 60800]⟩
abbrev S128x2432 : Shape := ⟨2, ![128, 2432]⟩
abbrev S500x500 : Shape := ⟨2, ![500, 500]⟩
abbrev S500x2432 : Shape := ⟨2, ![500, 2432]⟩
abbrev S1x500 : Shape := ⟨2, ![1, 500]⟩
abbrev S_ : Shape := ⟨0, ![]⟩

abbrev nBuf : Space → Nat
  | .hbm => 29
  | .vmem => 11
  | .smem => 0
  | _ => 0

abbrev bufTy : (tb : Table) → Fin (tcTables nBuf tb) → BufTy
  | .hbm, ⟨0, _⟩ => ⟨S500, .f32⟩
  | .hbm, ⟨1, _⟩ => ⟨S128x200x304, .f32⟩
  | .hbm, ⟨2, _⟩ => ⟨S128x200x304, .f32⟩
  | .hbm, ⟨3, _⟩ => ⟨S500, .i32⟩
  | .hbm, ⟨4, _⟩ => ⟨S500, .i32⟩
  | .hbm, ⟨5, _⟩ => ⟨S500, .i32⟩
  | .hbm, ⟨6, _⟩ => ⟨S500x1, .i32⟩
  | .hbm, ⟨7, _⟩ => ⟨S1x128, .i32⟩
  | .hbm, ⟨8, _⟩ => ⟨S500x128, .i32⟩
  | .hbm, ⟨9, _⟩ => ⟨S500x128, .i32⟩
  | .hbm, ⟨10, _⟩ => ⟨S500x128, .i1⟩
  | .hbm, ⟨11, _⟩ => ⟨S500x128, .f32⟩
  | .hbm, ⟨12, _⟩ => ⟨S500x1, .i32⟩
  | .hbm, ⟨13, _⟩ => ⟨S1x128, .i32⟩
  | .hbm, ⟨14, _⟩ => ⟨S500x128, .i32⟩
  | .hbm, ⟨15, _⟩ => ⟨S500x128, .i32⟩
  | .hbm, ⟨16, _⟩ => ⟨S500x128, .i1⟩
  | .hbm, ⟨17, _⟩ => ⟨S500x128, .f32⟩
  | .hbm, ⟨18, _⟩ => ⟨S128x60800, .f32⟩
  | .hbm, ⟨19, _⟩ => ⟨S128x60800, .f32⟩
  | .hbm, ⟨20, _⟩ => ⟨S500, .f32⟩
  | .hbm, ⟨21, _⟩ => ⟨S500, .f32⟩
  | .hbm, ⟨22, _⟩ => ⟨S500, .f32⟩
  | .hbm, ⟨23, _⟩ => ⟨S_, .f32⟩
  | .hbm, ⟨24, _⟩ => ⟨S500, .f32⟩
  | .hbm, ⟨25, _⟩ => ⟨S500, .f32⟩
  | .hbm, ⟨26, _⟩ => ⟨S500, .f32⟩
  | .hbm, ⟨27, _⟩ => ⟨S500, .f32⟩
  | .hbm, ⟨28, _⟩ => ⟨S500, .f32⟩
  | .local _ .vmem, ⟨0, _⟩ => ⟨S500x128, .f32⟩
  | .local _ .vmem, ⟨1, _⟩ => ⟨S500x128, .f32⟩
  | .local _ .vmem, ⟨2, _⟩ => ⟨S128x2432, .f32⟩
  | .local _ .vmem, ⟨3, _⟩ => ⟨S128x2432, .f32⟩
  | .local _ .vmem, ⟨4, _⟩ => ⟨S128x2432, .f32⟩
  | .local _ .vmem, ⟨5, _⟩ => ⟨S128x2432, .f32⟩
  | .local _ .vmem, ⟨6, _⟩ => ⟨S500, .i32⟩
  | .local _ .vmem, ⟨7, _⟩ => ⟨S500, .f32⟩
  | .local _ .vmem, ⟨8, _⟩ => ⟨S500, .f32⟩
  | .local _ .vmem, ⟨9, _⟩ => ⟨S500, .f32⟩
  | .local _ .vmem, ⟨10, _⟩ => ⟨S500x500, .f32⟩
  | _, _ => ⟨S500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v36 : BitVec 1 := Scalar.cmpi .eq arg0 c24_i32
  let v37 : BitVec 32 := Scalar.extui v36
  let c0_i32_21 : BitVec 32 := 0#32
  let v38 : BitVec 1 := Scalar.cmpi .ne v37 c0_i32_21
  v38

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S500x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S500 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S500 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S500 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S500 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  bcast_S1x128_S500x128_0_1 : S1x128.BroadcastsInDim S500x128 (![0, 1] : Fin 2 → Fin S500x128.rank)
  shapeCasts_S128x200x304_S128x60800 : S128x200x304.ShapeCasts S128x60800
  inb_S500x500_S500x500_0_0 : ∀ a, (![0, 0] : Fin 2 → Nat) a + S500x500.size a ≤ S500x500.size a
  h_S500x500 : 0 < S500x500.numel
  shapeCasts_S500x500_S500x500 : S500x500.ShapeCasts S500x500
  inb_S500_S500_0 : ∀ a, (![0] : Fin 1 → Nat) a + S500.size a ≤ S500.size a
  h_S500 : 0 < S500.numel
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S128x2432_S128x2432_0_0 : ∀ a, (![0, 0] : Fin 2 → Nat) a + S128x2432.size a ≤ S128x2432.size a
  h_S128x2432 : 0 < S128x2432.numel
  shapeCasts_S128x2432_S128x2432 : S128x2432.ShapeCasts S128x2432
  natLt_1_32 : 1 < 32
  shapeCasts_S500_S500 : S500.ShapeCasts S500
  reduces_S500x2432_S500 : S500x2432.Reduces [1] S500
  bitsLt_bf16_f32 : FTy.bits .bf16 < FTy.bits .f32
  iota_S500x500_d0_w32 : S500x500.Iotas .tc 32 [0]
  iota_S500x500_d1_w32 : S500x500.Iotas .tc 32 [1]
  shapeCasts_S500_S500x1 : S500.ShapeCasts S500x1
  shapeCasts_S500_S1x500 : S500.ShapeCasts S1x500
  broadcasts_S500x1_S500x500 : S500x1.Broadcasts S500x500
  broadcasts_S1x500_S500x500 : S1x500.Broadcasts S500x500
  reduces_S500x500_S500 : S500x500.Reduces [0] S500
  bcast_S_S500 : S_.BroadcastsInDim S500 (![] : Fin 0 → Fin S500.rank)
  dot_S500x128_S128x2432_S500x2432_1_0_0_1_n_n_wf : DotDims.WF S500x128 S128x2432 S500x2432 [1] [0] [0] [1] [] []
  dot_S500x2432_S500x2432_S500x500_1_1_0_0_n_n_wf : DotDims.WF S500x2432 S500x2432 S500x500 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S500x128.size a ≤ S500x128.size a
  hwx0_0 : ∀ i : grid0.Coords, EltTy.bits .f32 = 32 ∨ (Rect.block (s := S500x128) S500x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2432.size a ≤ S128x60800.size a
  hwx0_2 : ∀ i : grid0.Coords, EltTy.bits .f32 = 32 ∨ (Rect.block (s := S128x60800) S128x2432.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2432.size a ≤ S128x60800.size a
  hwx0_3 : ∀ i : grid0.Coords, EltTy.bits .f32 = 32 ∨ (Rect.block (s := S128x60800) S128x2432.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S500.size a ≤ S500.size a
  hwx0_4 : ∀ i : grid0.Coords, EltTy.bits .i32 = 32 ∨ (Rect.block (s := S500) S500.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S500.size a ≤ S500.size a
  hwx0_5 : ∀ i : grid0.Coords, EltTy.bits .f32 = 32 ∨ (Rect.block (s := S500) S500.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S500.size a ≤ S500.size a
  hwx0_6 : ∀ i : grid0.Coords, EltTy.bits .f32 = 32 ∨ (Rect.block (s := S500) S500.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S500.size a ≤ S500.size a
  hwx0_7 : ∀ i : grid0.Coords, EltTy.bits .f32 = 32 ∨ (Rect.block (s := S500) S500.size (cc0_transform_7 i) (hinb0_7 i)).WholeWords (EltTy.packing .f32)

variable [Facts₀]

def dot_S500x128_S128x2432_S500x2432_1_0_0_1_n_n : DotDims S500x128 S128x2432 S500x2432 where
  lhsContracting := [1]
  rhsContracting := [0]
  lhsNonContracting := [0]
  rhsNonContracting := [1]
  lhsBatch := []
  rhsBatch := []
  wf := dot_S500x128_S128x2432_S500x2432_1_0_0_1_n_n_wf
def dot_S500x2432_S500x2432_S500x500_1_1_0_0_n_n : DotDims S500x2432 S500x2432 S500x500 where
  lhsContracting := [1]
  rhsContracting := [1]
  lhsNonContracting := [0]
  rhsNonContracting := [0]
  lhsBatch := []
  rhsBatch := []
  wf := dot_S500x2432_S500x2432_S500x500_1_1_0_0_n_n_wf

abbrev win0_0 : Pipeline.Window sig grid0 :=
  Pipeline.Window.ofSpec (Memref.whole main_v0) S500x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x2432.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x2432.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S500.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S500.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S500.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun _ => false | 7 => fun _ => false | ⟨_ + 8, h⟩ => absurd h (Nat.not_lt.2 (Nat.le_add_left _ _))

class Facts : Prop extends Facts₀ where

variable [Facts]
-- ==== ReferenceIdeal.lean ====
abbrev S500 : Shape := ⟨1, ![500]⟩
abbrev S128x200x304 : Shape := ⟨3, ![128, 200, 304]⟩
abbrev S_ : Shape := ⟨0, ![]⟩
abbrev S500x1 : Shape := ⟨2, ![500, 1]⟩
abbrev S500x200x304 : Shape := ⟨3, ![500, 200, 304]⟩
abbrev S500x60800 : Shape := ⟨2, ![500, 60800]⟩
abbrev S60800x500 : Shape := ⟨2, ![60800, 500]⟩
abbrev S500x500 : Shape := ⟨2, ![500, 500]⟩
abbrev S1x500 : Shape := ⟨2, ![1, 500]⟩

abbrev nBuf : Space → Nat
  | .hbm => 95
  | .vmem => 0
  | .smem => 0
  | _ => 0

abbrev bufTy : (tb : Table) → Fin (tcTables nBuf tb) → BufTy
  | .hbm, ⟨0, _⟩ => ⟨S500, .f32⟩
  | .hbm, ⟨1, _⟩ => ⟨S128x200x304, .f32⟩
  | .hbm, ⟨2, _⟩ => ⟨S128x200x304, .f32⟩
  | .hbm, ⟨3, _⟩ => ⟨S500, .i32⟩
  | .hbm, ⟨4, _⟩ => ⟨S500, .i32⟩
  | .hbm, ⟨5, _⟩ => ⟨S500, .i32⟩
  | .hbm, ⟨6, _⟩ => ⟨S_, .i32⟩
  | .hbm, ⟨7, _⟩ => ⟨S500, .i32⟩
  | .hbm, ⟨8, _⟩ => ⟨S500, .i1⟩
  | .hbm, ⟨9, _⟩ => ⟨S_, .i32⟩
  | .hbm, ⟨10, _⟩ => ⟨S500, .i32⟩
  | .hbm, ⟨11, _⟩ => ⟨S500, .i32⟩
  | .hbm, ⟨12, _⟩ => ⟨S500, .i32⟩
  | .hbm, ⟨13, _⟩ => ⟨S500x1, .i32⟩
  | .hbm, ⟨14, _⟩ => ⟨S500x200x304, .f32⟩
  | .hbm, ⟨15, _⟩ => ⟨S_, .i32⟩
  | .hbm, ⟨16, _⟩ => ⟨S500, .i32⟩
  | .hbm, ⟨17, _⟩ => ⟨S500, .i1⟩
  | .hbm, ⟨18, _⟩ => ⟨S_, .i32⟩
  | .hbm, ⟨19, _⟩ => ⟨S500, .i32⟩
  | .hbm, ⟨20, _⟩ => ⟨S500, .i32⟩
  | .hbm, ⟨21, _⟩ => ⟨S500, .i32⟩
  | .hbm, ⟨22, _⟩ => ⟨S500x1, .i32⟩
  | .hbm, ⟨23, _⟩ => ⟨S500x200x304, .f32⟩
  | .hbm, ⟨24, _⟩ => ⟨S500x200x304, .f32⟩
  | .hbm, ⟨25, _⟩ => ⟨S_, .f32⟩
  | .hbm, ⟨26, _⟩ => ⟨S500x200x304, .f32⟩
  | .hbm, ⟨27, _⟩ => ⟨S500x200x304, .i1⟩
  | .hbm, ⟨28, _⟩ => ⟨S500x200x304, .f32⟩
  | .hbm, ⟨29, _⟩ => ⟨S_, .f32⟩
  | .hbm, ⟨30, _⟩ => ⟨S500, .f32⟩
  | .hbm, ⟨31, _⟩ => ⟨S500x200x304, .f32⟩
  | .hbm, ⟨32, _⟩ => ⟨S_, .f32⟩
  | .hbm, ⟨33, _⟩ => ⟨S500, .f32⟩
  | .hbm, ⟨34, _⟩ => ⟨S_, .f32⟩
  | .hbm, ⟨35, _⟩ => ⟨S500, .f32⟩
  | .hbm, ⟨36, _⟩ => ⟨S500, .f32⟩
  | .hbm, ⟨37, _⟩ => ⟨S500, .f32⟩
  | .hbm, ⟨38, _⟩ => ⟨S500, .f32⟩
  | .hbm, ⟨39, _⟩ => ⟨S500x60800, .f32⟩
  | .hbm, ⟨40, _⟩ => ⟨S60800x500, .f32⟩
  | .hbm, ⟨41, _⟩ => ⟨S500x500, .f32⟩
  | .hbm, ⟨42, _⟩ => ⟨S500x1, .f32⟩
  | .hbm, ⟨43, _⟩ => ⟨S1x500, .f32⟩
  | .hbm, ⟨44, _⟩ => ⟨S500x500, .f32⟩
  | .hbm, ⟨45, _⟩ => ⟨S500x500, .f32⟩
  | .hbm, ⟨46, _⟩ => ⟨S500x500, .f32⟩
  | .hbm, ⟨47, _⟩ => ⟨S500x500, .f32⟩
  | .hbm, ⟨48, _⟩ => ⟨S_, .f32⟩
  | .hbm, ⟨49, _⟩ => ⟨S500x500, .f32⟩
  | .hbm, ⟨50, _⟩ => ⟨S500x500, .f32⟩
  | .hbm, ⟨51, _⟩ => ⟨S500x500, .f32⟩
  | .hbm, ⟨52, _⟩ => ⟨S500x500, .i32⟩
  | .hbm, ⟨53, _⟩ => ⟨S_, .i32⟩
  | .hbm, ⟨54, _⟩ => ⟨S500x500, .i32⟩
  | .hbm, ⟨55, _⟩ => ⟨S500x500, .i32⟩
  | .hbm, ⟨56, _⟩ => ⟨S500x500, .i32⟩
  | .hbm, ⟨57, _⟩ => ⟨S500x500, .i1⟩
  | .hbm, ⟨58, _⟩ => ⟨S_, .f32⟩
  | .hbm, ⟨59, _⟩ => ⟨S500x500, .f32⟩
  | .hbm, ⟨60, _⟩ => ⟨S500x500, .f32⟩
  | .hbm, ⟨61, _⟩ => ⟨S500x1, .i32⟩
  | .hbm, ⟨62, _⟩ => ⟨S1x500, .i32⟩
  | .hbm, ⟨63, _⟩ => ⟨S500x500, .i32⟩
  | .hbm, ⟨64, _⟩ => ⟨S500x500, .i32⟩
  | .hbm, ⟨65, _⟩ => ⟨S500x500, .i1⟩
  | .hbm, ⟨66, _⟩ => ⟨S500x500, .f32⟩
  | .hbm, ⟨67, _⟩ => ⟨S500x500, .i32⟩
  | .hbm, ⟨68, _⟩ => ⟨S_, .i32⟩
  | .hbm, ⟨69, _⟩ => ⟨S500x500, .i32⟩
  | .hbm, ⟨70, _⟩ => ⟨S500x500, .i32⟩
  | .hbm, ⟨71, _⟩ => ⟨S500x500, .i32⟩
  | .hbm, ⟨72, _⟩ => ⟨S500x500, .i1⟩
  | .hbm, ⟨73, _⟩ => ⟨S_, .f32⟩
  | .hbm, ⟨74, _⟩ => ⟨S500x500, .f32⟩
  | .hbm, ⟨75, _⟩ => ⟨S500x500, .f32⟩
  | .hbm, ⟨76, _⟩ => ⟨S500x500, .f32⟩
  | .hbm, ⟨77, _⟩ => ⟨S_, .f32⟩
  | .hbm, ⟨78, _⟩ => ⟨S500, .f32⟩
  | .hbm, ⟨79, _⟩ => ⟨S500x500, .f32⟩
  | .hbm, ⟨80, _⟩ => ⟨S_, .f32⟩
  | .hbm, ⟨81, _⟩ => ⟨S500x500, .f32⟩
  | .hbm, ⟨82, _⟩ => ⟨S500x500, .f32⟩
  | .hbm, ⟨83, _⟩ => ⟨S500x500, .f32⟩
  | .hbm, ⟨84, _⟩ => ⟨S500, .f32⟩
  | .hbm, ⟨85, _⟩ => ⟨S_, .f32⟩
  | .hbm, ⟨86, _⟩ => ⟨S500, .f32⟩
  | .hbm, ⟨87, _⟩ => ⟨S500, .f32⟩
  | .hbm, ⟨88, _⟩ => ⟨S500, .f32⟩
  | .hbm, ⟨89, _⟩ => ⟨S500x1, .f32⟩
  | .hbm, ⟨90, _⟩ => ⟨S500x500, .f32⟩
  | .hbm, ⟨91, _⟩ => ⟨S500x500, .f32⟩
  | .hbm, ⟨92, _⟩ => ⟨S_, .f32⟩
  | .hbm, ⟨93, _⟩ => ⟨S500, .f32⟩
  | .hbm, ⟨94, _⟩ => ⟨S500, .f32⟩
  | _, _ => ⟨S500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_cst : Ref sig .tc := ⟨.hbm, 58, rfl⟩
abbrev main_call0_v5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_cst : Ref sig .tc := ⟨.hbm, 73, rfl⟩
abbrev main_call1_v5 : Ref sig .tc := ⟨.hbm, 74, rfl⟩
abbrev main_v44 : Ref sig .tc := ⟨.hbm, 75, rfl⟩
abbrev main_v45 : Ref sig .tc := ⟨.hbm, 76, rfl⟩
abbrev main_cst_7 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_10 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]

class Facts₀ : Prop where
  bcast_S_S500 : S_.BroadcastsInDim S500 (![] : Fin 0 → Fin S500.rank)
  bcast_S500_S500x1_0 : S500.BroadcastsInDim S500x1 (![0] : Fin 1 → Fin S500x1.rank)
  bcast_S_S500x200x304 : S_.BroadcastsInDim S500x200x304 (![] : Fin 0 → Fin S500x200x304.rank)
  reducesTo_S500x200x304_S500_d1_2 : S500x200x304.ReducesTo [1, 2] S500
  h_S_ : 0 < S_.numel
  shapeCasts_S500x200x304_S500x60800 : S500x200x304.ShapeCasts S500x60800
  transposes_S500x60800_S60800x500_1_0 : S500x60800.Transposes [1, 0] S60800x500
  bcast_S500_S1x500_1 : S500.BroadcastsInDim S1x500 (![1] : Fin 1 → Fin S1x500.rank)
  bcast_S500x1_S500x500_0_1 : S500x1.BroadcastsInDim S500x500 (![0, 1] : Fin 2 → Fin S500x500.rank)
  bcast_S1x500_S500x500_0_1 : S1x500.BroadcastsInDim S500x500 (![0, 1] : Fin 2 → Fin S500x500.rank)
  bcast_S_S500x500 : S_.BroadcastsInDim S500x500 (![] : Fin 0 → Fin S500x500.rank)
  reducesTo_S500x500_S500_d0 : S500x500.ReducesTo [0] S500
  gather_S128x200x304_S500x1_S500x200x304_12_0_n_n_0_1_1200304_wf : GatherDims.WF S128x200x304 S500x1 S500x200x304 [1, 2] [0] [] [0] [] 1 ![1, 200, 304]
  dot_S500x60800_S60800x500_S500x500_1_0_0_1_n_n_wf : DotDims.WF S500x60800 S60800x500 S500x500 [1] [0] [0] [1] [] []

variable [Facts₀]

def gather_S128x200x304_S500x1_S500x200x304_12_0_n_n_0_1_1200304 : GatherDims S128x200x304 S500x1 S500x200x304 where
  offsetDims := [1, 2]
  collapsedSliceDims := [0]
  operandBatchingDims := []
  startIndicesBatchingDims := []
  startIndexMap := [0]
  indexVectorDim := 1
  sliceSizes := ![1, 200, 304]
  wf := gather_S128x200x304_S500x1_S500x200x304_12_0_n_n_0_1_1200304_wf
def dot_S500x60800_S60800x500_S500x500_1_0_0_1_n_n : DotDims S500x60800 S60800x500 S500x500 where
  lhsContracting := [1]
  rhsContracting := [0]
  lhsNonContracting := [0]
  rhsNonContracting := [1]
  lhsBatch := []
  rhsBatch := []
  wf := dot_S500x60800_S60800x500_S500x500_1_0_0_1_n_n_wf

class Facts : Prop extends Facts₀ where

variable [Facts]
-- ==== Proof.KSteps.lean ====
/-
  What one grid step leaves in the two running vectors, in the running 500 × 500 matrix and, at the last step, in
  the decay vector, as values: each is the payload of the step's last covering store of that buffer, read over the
  blocks the step loaded and over what the step before left. At the first step the three accumulators are first
  reset, so the payloads are read over the zero vectors the reset stored.
-/
import proofs.«405678_j60876866453719_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Steps

open Cert.KernelIdeal Cert.KernelIdeal.Gen

variable {F : FTy → Type} [FloatOps F]

/-- The offset vector of a whole-vector access of a rank-one buffer is the zero vector. -/
private theorem hz1 : (![0] : Fin 1 → Nat) = fun _ => 0 := funext fun a => by fin_cases a <;> rfl

/-- The offset vector of a whole-matrix access of a rank-two buffer is the zero vector. -/
private theorem hz2 : (![0, 0] : Fin 2 → Nat) = fun _ => 0 := funext fun a => by fin_cases a <;> rfl

/-
  How each lemma below goes. What a step leaves in a buffer is its list of stores read back, and since those stores
  cover the buffer the read-back is the list's canonical value. Every store and every load of this kernel is of a whole
  buffer at zero offsets, so the last store alone decides the value: it is that store's payload. Inside the payload a
  load of an input block reads the block, a load of an accumulator the step has not yet stored into reads what the
  step before left, and a load of an accumulator after a store of the same step reads that store's payload: at the
  first step the zero the reset stored, at the last step the completed matrix and area vector the decay reads.
-/

/-- The payload of the matrix store is the running matrix itself: the cast between equal shapes is the identity. -/
theorem pay1_eq (v : FVec F S500x500 .f32) : k0_pay1 v = v := by
  unfold k0_pay1
  exact shapeCast_self _ _

/-- First step, the area vector: the step's row sums added to the zero vector the reset stored. -/
theorem area_first (c : Dev nD) (i : grid0.Coords) (arg1 : Memref sig .tc .vmem S500x128 .f32) (harg1 : arg1.IsWhole) (arg2 : Memref sig .tc .vmem S500x128 .f32) (harg2 : arg2.IsWhole) (arg3 : Memref sig .tc .vmem S128x2432 .f32) (harg3 : arg3.IsWhole) (arg4 : Memref sig .tc .vmem S128x2432 .f32) (harg4 : arg4.IsWhole) (arg5 : Memref sig .tc .vmem S500 .i32) (harg5 : arg5.IsWhole) (arg6 : Memref sig .tc .vmem S500 .f32) (harg6 : arg6.IsWhole) (arg7 : Memref sig .tc .vmem S500 .f32) (harg7 : arg7.IsWhole) (arg8 : Memref sig .tc .vmem S500 .f32) (harg8 : arg8.IsWhole) (arg9 : Memref sig .tc .vmem S500x500 .f32) (harg9 : arg9.IsWhole) (hc0 : cond0_0 i) (hc1 : ¬cond0_1 i)
    (x0 : Vec F S500x128 .f32) (x1 : Vec F S500x128 .f32) (x2 : Vec F S128x2432 .f32) (x3 : Vec F S128x2432 .f32) (x4 : Vec F S500 .i32) :
    out0_A_6 c i arg1 harg1 arg2 harg2 arg3 harg3 arg4 harg4 arg5 harg5 arg6 harg6 arg7 harg7 arg8 harg8 arg9 harg9 hc0 hc1 x0 x1 x2 x3 x4 = k0_pay8 x0 x1 x2 x3 (k0_pay4 (F := F)) := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S500) hz1, View.readCov_unit_zero (S := S500) _ hz1]
  simp only [View.readAt_eq_ld, harg1.read_unread, harg2.read_unread, harg3.read_unread, harg4.read_unread, harg5.read_unread, harg6.read_unread, harg7.read_unread, harg8.read_unread, harg9.read_unread, View.ld_unit_zero (S := S500x128) hz2, View.ld_unit_zero (S := S128x2432) hz2, View.ld_unit_zero (S := S500) hz1, View.ld_unit_zero (S := S500x500) hz2]

/-- First step, the numerator vector: the step's row sums of soft·hard added to the zero vector the reset stored. -/
theorem numer_first (c : Dev nD) (i : grid0.Coords) (arg1 : Memref sig .tc .vmem S500x128 .f32) (harg1 : arg1.IsWhole) (arg2 : Memref sig .tc .vmem S500x128 .f32) (harg2 : arg2.IsWhole) (arg3 : Memref sig .tc .vmem S128x2432 .f32) (harg3 : arg3.IsWhole) (arg4 : Memref sig .tc .vmem S128x2432 .f32) (harg4 : arg4.IsWhole) (arg5 : Memref sig .tc .vmem S500 .i32) (harg5 : arg5.IsWhole) (arg6 : Memref sig .tc .vmem S500 .f32) (harg6 : arg6.IsWhole) (arg7 : Memref sig .tc .vmem S500 .f32) (harg7 : arg7.IsWhole) (arg8 : Memref sig .tc .vmem S500 .f32) (harg8 : arg8.IsWhole) (arg9 : Memref sig .tc .vmem S500x500 .f32) (harg9 : arg9.IsWhole) (hc0 : cond0_0 i) (hc1 : ¬cond0_1 i)
    (x0 : Vec F S500x128 .f32) (x1 : Vec F S500x128 .f32) (x2 : Vec F S128x2432 .f32) (x3 : Vec F S128x2432 .f32) (x4 : Vec F S500 .i32) :
    out0_A_7 c i arg1 harg1 arg2 harg2 arg3 harg3 arg4 harg4 arg5 harg5 arg6 harg6 arg7 harg7 arg8 harg8 arg9 harg9 hc0 hc1 x0 x1 x2 x3 x4 = k0_pay9 x0 x1 x2 x3 (k0_pay5 (F := F)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S500) hz1, View.readCov_unit_zero (S := S500) _ hz1]
  simp only [View.readAt_eq_ld, harg1.read_unread, harg2.read_unread, harg3.read_unread, harg4.read_unread, harg5.read_unread, harg6.read_unread, harg7.read_unread, harg8.read_unread, harg9.read_unread, View.ld_unit_zero (S := S500x128) hz2, View.ld_unit_zero (S := S128x2432) hz2, View.ld_unit_zero (S := S500) hz1, View.ld_unit_zero (S := S500x500) hz2]

/-- First step, the intersection matrix: the step's product of the hard block with its transpose added to the zero matrix the reset stored. -/
theorem matrix_first (c : Dev nD) (i : grid0.Coords) (arg1 : Memref sig .tc .vmem S500x128 .f32) (harg1 : arg1.IsWhole) (arg2 : Memref sig .tc .vmem S500x128 .f32) (harg2 : arg2.IsWhole) (arg3 : Memref sig .tc .vmem S128x2432 .f32) (harg3 : arg3.IsWhole) (arg4 : Memref sig .tc .vmem S128x2432 .f32) (harg4 : arg4.IsWhole) (arg5 : Memref sig .tc .vmem S500 .i32) (harg5 : arg5.IsWhole) (arg6 : Memref sig .tc .vmem S500 .f32) (harg6 : arg6.IsWhole) (arg7 : Memref sig .tc .vmem S500 .f32) (harg7 : arg7.IsWhole) (arg8 : Memref sig .tc .vmem S500 .f32) (harg8 : arg8.IsWhole) (arg9 : Memref sig .tc .vmem S500x500 .f32) (harg9 : arg9.IsWhole) (hc0 : cond0_0 i) (hc1 : ¬cond0_1 i)
    (x0 : Vec F S500x128 .f32) (x1 : Vec F S500x128 .f32) (x2 : Vec F S128x2432 .f32) (x3 : Vec F S128x2432 .f32) (x4 : Vec F S500 .i32) :
    sout0_A_0 c i arg1 harg1 arg2 harg2 arg3 harg3 arg4 harg4 arg5 harg5 arg6 harg6 arg7 harg7 arg8 harg8 arg9 harg9 hc0 hc1 x0 x1 x2 x3 x4 = k0_pay10 x0 x1 x2 x3 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S500x500) hz2, View.readCov_unit_zero (S := S500x500) _ hz2]
  simp only [View.readAt_eq_ld, harg1.read_unread, harg2.read_unread, harg3.read_unread, harg4.read_unread, harg5.read_unread, harg6.read_unread, harg7.read_unread, harg8.read_unread, harg9.read_unread, View.ld_unit_zero (S := S500x128) hz2, View.ld_unit_zero (S := S128x2432) hz2, View.ld_unit_zero (S := S500) hz1, View.ld_unit_zero (S := S500x500) hz2, pay1_eq]

/-- A middle step, the area vector: the step's row sums added to what the step before left. -/
theorem area_middle (c : Dev nD) (i : grid0.Coords) (arg1 : Memref sig .tc .vmem S500x128 .f32) (harg1 : arg1.IsWhole) (arg2 : Memref sig .tc .vmem S500x128 .f32) (harg2 : arg2.IsWhole) (arg3 : Memref sig .tc .vmem S128x2432 .f32) (harg3 : arg3.IsWhole) (arg4 : Memref sig .tc .vmem S128x2432 .f32) (harg4 : arg4.IsWhole) (arg5 : Memref sig .tc .vmem S500 .i32) (harg5 : arg5.IsWhole) (arg6 : Memref sig .tc .vmem S500 .f32) (harg6 : arg6.IsWhole) (arg7 : Memref sig .tc .vmem S500 .f32) (harg7 : arg7.IsWhole) (arg8 : Memref sig .tc .vmem S500 .f32) (harg8 : arg8.IsWhole) (arg9 : Memref sig .tc .vmem S500x500 .f32) (harg9 : arg9.IsWhole) (hc0 : ¬cond0_0 i) (hc1 : ¬cond0_1 i)
    (x0 : Vec F S500x128 .f32) (x1 : Vec F S500x128 .f32) (x2 : Vec F S128x2432 .f32) (x3 : Vec F S128x2432 .f32) (x4 : Vec F S500 .i32) (xo6 : Vec F S500 .f32) (xo7 : Vec F S500 .f32) (xs0 : Vec F S500x500 .f32) :
    out0_B_6 c i arg1 harg1 arg2 harg2 arg3 harg3 arg4 harg4 arg5 harg5 arg6 harg6 arg7 harg7 arg8 harg8 arg9 harg9 hc0 hc1 x0 x1 x2 x3 x4 xo6 xo7 xs0 = k0_pay8 x0 x1 x2 x3 xo6 := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 x0 x1 x2 x3 x4 xo6 xo7 xs0)]
  unfold kernelRun0_B
  dsimp only
  sl_unfold_words
  rw [View.canon_unit_zero (S := S500) hz1]
  simp only [View.readAt_eq_ld, harg1.read_unread, harg2.read_unread, harg3.read_unread, harg4.read_unread, harg5.read_unread, harg6.read_unread, harg7.read_unread, harg8.read_unread, harg9.read_unread, View.ld_unit_zero (S := S500x128) hz2, View.ld_unit_zero (S := S128x2432) hz2, View.ld_unit_zero (S := S500) hz1, View.ld_unit_zero (S := S500x500) hz2]

/-- A middle step, the numerator vector. -/
theorem numer_middle (c : Dev nD) (i : grid0.Coords) (arg1 : Memref sig .tc .vmem S500x128 .f32) (harg1 : arg1.IsWhole) (arg2 : Memref sig .tc .vmem S500x128 .f32) (harg2 : arg2.IsWhole) (arg3 : Memref sig .tc .vmem S128x2432 .f32) (harg3 : arg3.IsWhole) (arg4 : Memref sig .tc .vmem S128x2432 .f32) (harg4 : arg4.IsWhole) (arg5 : Memref sig .tc .vmem S500 .i32) (harg5 : arg5.IsWhole) (arg6 : Memref sig .tc .vmem S500 .f32) (harg6 : arg6.IsWhole) (arg7 : Memref sig .tc .vmem S500 .f32) (harg7 : arg7.IsWhole) (arg8 : Memref sig .tc .vmem S500 .f32) (harg8 : arg8.IsWhole) (arg9 : Memref sig .tc .vmem S500x500 .f32) (harg9 : arg9.IsWhole) (hc0 : ¬cond0_0 i) (hc1 : ¬cond0_1 i)
    (x0 : Vec F S500x128 .f32) (x1 : Vec F S500x128 .f32) (x2 : Vec F S128x2432 .f32) (x3 : Vec F S128x2432 .f32) (x4 : Vec F S500 .i32) (xo6 : Vec F S500 .f32) (xo7 : Vec F S500 .f32) (xs0 : Vec F S500x500 .f32) :
    out0_B_7 c i arg1 harg1 arg2 harg2 arg3 harg3 arg4 harg4 arg5 harg5 arg6 harg6 arg7 harg7 arg8 harg8 arg9 harg9 hc0 hc1 x0 x1 x2 x3 x4 xo6 xo7 xs0 = k0_pay9 x0 x1 x2 x3 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 hc1 x0 x1 x2 x3 x4 xo6 xo7 xs0)]
  unfold kernelRun0_B
  dsimp only
  sl_unfold_words
  rw [View.canon_unit_zero (S := S500) hz1]
  simp only [View.readAt_eq_ld, harg1.read_unread, harg2.read_unread, harg3.read_unread, harg4.read_unread, harg5.read_unread, harg6.read_unread, harg7.read_unread, harg8.read_unread, harg9.read_unread, View.ld_unit_zero (S := S500x128) hz2, View.ld_unit_zero (S := S128x2432) hz2, View.ld_unit_zero (S := S500) hz1, View.ld_unit_zero (S := S500x500) hz2]

/-- A middle step, the intersection matrix. -/
theorem matrix_middle (c : Dev nD) (i : grid0.Coords) (arg1 : Memref sig .tc .vmem S500x128 .f32) (harg1 : arg1.IsWhole) (arg2 : Memref sig .tc .vmem S500x128 .f32) (harg2 : arg2.IsWhole) (arg3 : Memref sig .tc .vmem S128x2432 .f32) (harg3 : arg3.IsWhole) (arg4 : Memref sig .tc .vmem S128x2432 .f32) (harg4 : arg4.IsWhole) (arg5 : Memref sig .tc .vmem S500 .i32) (harg5 : arg5.IsWhole) (arg6 : Memref sig .tc .vmem S500 .f32) (harg6 : arg6.IsWhole) (arg7 : Memref sig .tc .vmem S500 .f32) (harg7 : arg7.IsWhole) (arg8 : Memref sig .tc .vmem S500 .f32) (harg8 : arg8.IsWhole) (arg9 : Memref sig .tc .vmem S500x500 .f32) (harg9 : arg9.IsWhole) (hc0 : ¬cond0_0 i) (hc1 : ¬cond0_1 i)
    (x0 : Vec F S500x128 .f32) (x1 : Vec F S500x128 .f32) (x2 : Vec F S128x2432 .f32) (x3 : Vec F S128x2432 .f32) (x4 : Vec F S500 .i32) (xo6 : Vec F S500 .f32) (xo7 : Vec F S500 .f32) (xs0 : Vec F S500x500 .f32) :
    sout0_B_0 c i arg1 harg1 arg2 harg2 arg3 harg3 arg4 harg4 arg5 harg5 arg6 harg6 arg7 harg7 arg8 harg8 arg9 harg9 hc0 hc1 x0 x1 x2 x3 x4 xo6 xo7 xs0 = k0_pay10 x0 x1 x2 x3 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xo6 xo7 xs0)]
  unfold kernelRun0_B
  dsimp only
  sl_unfold_words
  rw [View.canon_unit_zero (S := S500x500) hz2]
  simp only [View.readAt_eq_ld, harg1.read_unread, harg2.read_unread, harg3.read_unread, harg4.read_unread, harg5.read_unread, harg6.read_unread, harg7.read_unread, harg8.read_unread, harg9.read_unread, View.ld_unit_zero (S := S500x128) hz2, View.ld_unit_zero (S := S128x2432) hz2, View.ld_unit_zero (S := S500) hz1, View.ld_unit_zero (S := S500x500) hz2, pay1_eq]

/-- The last step, the area vector: as at a middle step. -/
theorem area_last (c : Dev nD) (i : grid0.Coords) (arg1 : Memref sig .tc .vmem S500x128 .f32) (harg1 : arg1.IsWhole) (arg2 : Memref sig .tc .vmem S500x128 .f32) (harg2 : arg2.IsWhole) (arg3 : Memref sig .tc .vmem S128x2432 .f32) (harg3 : arg3.IsWhole) (arg4 : Memref sig .tc .vmem S128x2432 .f32) (harg4 : arg4.IsWhole) (arg5 : Memref sig .tc .vmem S500 .i32) (harg5 : arg5.IsWhole) (arg6 : Memref sig .tc .vmem S500 .f32) (harg6 : arg6.IsWhole) (arg7 : Memref sig .tc .vmem S500 .f32) (harg7 : arg7.IsWhole) (arg8 : Memref sig .tc .vmem S500 .f32) (harg8 : arg8.IsWhole) (arg9 : Memref sig .tc .vmem S500x500 .f32) (harg9 : arg9.IsWhole) (hc0 : ¬cond0_0 i) (hc1 : cond0_1 i)
    (x0 : Vec F S500x128 .f32) (x1 : Vec F S500x128 .f32) (x2 : Vec F S128x2432 .f32) (x3 : Vec F S128x2432 .f32) (x4 : Vec F S500 .i32) (xo6 : Vec F S500 .f32) (xo7 : Vec F S500 .f32) (xs0 : Vec F S500x500 .f32) :
    out0_C_6 c i arg1 harg1 arg2 harg2 arg3 harg3 arg4 harg4 arg5 harg5 arg6 harg6 arg7 harg7 arg8 harg8 arg9 harg9 hc0 hc1 x0 x1 x2 x3 x4 xo6 xo7 xs0 = k0_pay8 x0 x1 x2 x3 xo6 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 xo6 xo7 xs0)]
  unfold kernelRun0_C
  dsimp only
  sl_unfold_words
  rw [View.canon_unit_zero (S := S500) hz1]
  simp only [View.readAt_eq_ld, harg1.read_unread, harg2.read_unread, harg3.read_unread, harg4.read_unread, harg5.read_unread, harg6.read_unread, harg7.read_unread, harg8.read_unread, harg9.read_unread, View.ld_unit_zero (S := S500x128) hz2, View.ld_unit_zero (S := S128x2432) hz2, View.ld_unit_zero (S := S500) hz1, View.ld_unit_zero (S := S500x500) hz2]

/-- The last step, the numerator vector: as at a middle step. -/
theorem numer_last (c : Dev nD) (i : grid0.Coords) (arg1 : Memref sig .tc .vmem S500x128 .f32) (harg1 : arg1.IsWhole) (arg2 : Memref sig .tc .vmem S500x128 .f32) (harg2 : arg2.IsWhole) (arg3 : Memref sig .tc .vmem S128x2432 .f32) (harg3 : arg3.IsWhole) (arg4 : Memref sig .tc .vmem S128x2432 .f32) (harg4 : arg4.IsWhole) (arg5 : Memref sig .tc .vmem S500 .i32) (harg5 : arg5.IsWhole) (arg6 : Memref sig .tc .vmem S500 .f32) (harg6 : arg6.IsWhole) (arg7 : Memref sig .tc .vmem S500 .f32) (harg7 : arg7.IsWhole) (arg8 : Memref sig .tc .vmem S500 .f32) (harg8 : arg8.IsWhole) (arg9 : Memref sig .tc .vmem S500x500 .f32) (harg9 : arg9.IsWhole) (hc0 : ¬cond0_0 i) (hc1 : cond0_1 i)
    (x0 : Vec F S500x128 .f32) (x1 : Vec F S500x128 .f32) (x2 : Vec F S128x2432 .f32) (x3 : Vec F S128x2432 .f32) (x4 : Vec F S500 .i32) (xo6 : Vec F S500 .f32) (xo7 : Vec F S500 .f32) (xs0 : Vec F S500x500 .f32) :
    out0_C_7 c i arg1 harg1 arg2 harg2 arg3 harg3 arg4 harg4 arg5 harg5 arg6 harg6 arg7 harg7 arg8 harg8 arg9 harg9 hc0 hc1 x0 x1 x2 x3 x4 xo6 xo7 xs0 = k0_pay9 x0 x1 x2 x3 xo7 := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 xo6 xo7 xs0)]
  unfold kernelRun0_C
  dsimp only
  sl_unfold_words
  rw [View.canon_unit_zero (S := S500) hz1]
  simp only [View.readAt_eq_ld, harg1.read_unread, harg2.read_unread, harg3.read_unread, harg4.read_unread, harg5.read_unread, harg6.read_unread, harg7.read_unread, harg8.read_unread, harg9.read_unread, View.ld_unit_zero (S := S500x128) hz2, View.ld_unit_zero (S := S128x2432) hz2, View.ld_unit_zero (S := S500) hz1, View.ld_unit_zero (S := S500x500) hz2]

/-- The last step, the intersection matrix: as at a middle step. -/
theorem matrix_last (c : Dev nD) (i : grid0.Coords) (arg1 : Memref sig .tc .vmem S500x128 .f32) (harg1 : arg1.IsWhole) (arg2 : Memref sig .tc .vmem S500x128 .f32) (harg2 : arg2.IsWhole) (arg3 : Memref sig .tc .vmem S128x2432 .f32) (harg3 : arg3.IsWhole) (arg4 : Memref sig .tc .vmem S128x2432 .f32) (harg4 : arg4.IsWhole) (arg5 : Memref sig .tc .vmem S500 .i32) (harg5 : arg5.IsWhole) (arg6 : Memref sig .tc .vmem S500 .f32) (harg6 : arg6.IsWhole) (arg7 : Memref sig .tc .vmem S500 .f32) (harg7 : arg7.IsWhole) (arg8 : Memref sig .tc .vmem S500 .f32) (harg8 : arg8.IsWhole) (arg9 : Memref sig .tc .vmem S500x500 .f32) (harg9 : arg9.IsWhole) (hc0 : ¬cond0_0 i) (hc1 : cond0_1 i)
    (x0 : Vec F S500x128 .f32) (x1 : Vec F S500x128 .f32) (x2 : Vec F S128x2432 .f32) (x3 : Vec F S128x2432 .f32) (x4 : Vec F S500 .i32) (xo6 : Vec F S500 .f32) (xo7 : Vec F S500 .f32) (xs0 : Vec F S500x500 .f32) :
    sout0_C_0 c i arg1 harg1 arg2 harg2 arg3 harg3 arg4 harg4 arg5 harg5 arg6 harg6 arg7 harg7 arg8 harg8 arg9 harg9 hc0 hc1 x0 x1 x2 x3 x4 xo6 xo7 xs0 = k0_pay10 x0 x1 x2 x3 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xo6 xo7 xs0)]
  unfold kernelRun0_C
  dsimp only
  sl_unfold_words
  rw [View.canon_unit_zero (S := S500x500) hz2]
  simp only [View.readAt_eq_ld, harg1.read_unread, harg2.read_unread, harg3.read_unread, harg4.read_unread, harg5.read_unread, harg6.read_unread, harg7.read_unread, harg8.read_unread, harg9.read_unread, View.ld_unit_zero (S := S500x128) hz2, View.ld_unit_zero (S := S128x2432) hz2, View.ld_unit_zero (S := S500) hz1, View.ld_unit_zero (S := S500x500) hz2, pay1_eq]

/-- The last step, the decay vector: the tail's payload over the matrix and the area vector this same step has just completed and over the labels. -/
theorem decay_last (c : Dev nD) (i : grid0.Coords) (arg1 : Memref sig .tc .vmem S500x128 .f32) (harg1 : arg1.IsWhole) (arg2 : Memref sig .tc .vmem S500x128 .f32) (harg2 : arg2.IsWhole) (arg3 : Memref sig .tc .vmem S128x2432 .f32) (harg3 : arg3.IsWhole) (arg4 : Memref sig .tc .vmem S128x2432 .f32) (harg4 : arg4.IsWhole) (arg5 : Memref sig .tc .vmem S500 .i32) (harg5 : arg5.IsWhole) (arg6 : Memref sig .tc .vmem S500 .f32) (harg6 : arg6.IsWhole) (arg7 : Memref sig .tc .vmem S500 .f32) (harg7 : arg7.IsWhole) (arg8 : Memref sig .tc .vmem S500 .f32) (harg8 : arg8.IsWhole) (arg9 : Memref sig .tc .vmem S500x500 .f32) (harg9 : arg9.IsWhole) (hc0 : ¬cond0_0 i) (hc1 : cond0_1 i)
    (x0 : Vec F S500x128 .f32) (x1 : Vec F S500x128 .f32) (x2 : Vec F S128x2432 .f32) (x3 : Vec F S128x2432 .f32) (x4 : Vec F S500 .i32) (xo6 : Vec F S500 .f32) (xo7 : Vec F S500 .f32) (xs0 : Vec F S500x500 .f32) :
    out0_C_5 c i arg1 harg1 arg2 harg2 arg3 harg3 arg4 harg4 arg5 harg5 arg6 harg6 arg7 harg7 arg8 harg8 arg9 harg9 hc0 hc1 x0 x1 x2 x3 x4 xo6 xo7 xs0 = k0_pay2 (k0_pay10 x0 x1 x2 x3 xs0) (k0_pay8 x0 x1 x2 x3 xo6) x4 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xo6 xo7 xs0)]
  unfold kernelRun0_C
  dsimp only
  sl_unfold_words
  rw [View.canon_unit_zero (S := S500) hz1, View.readCov_unit_zero (S := S500x500) _ hz2, View.readCov_unit_zero (S := S500) _ hz1]
  simp only [View.readAt_eq_ld, harg1.read_unread, harg2.read_unread, harg3.read_unread, harg4.read_unread, harg5.read_unread, harg6.read_unread, harg7.read_unread, harg8.read_unread, harg9.read_unread, View.ld_unit_zero (S := S500x128) hz2, View.ld_unit_zero (S := S128x2432) hz2, View.ld_unit_zero (S := S500) hz1, View.ld_unit_zero (S := S500x500) hz2, pay1_eq]

end Cert.KernelIdeal.Steps

end
-- ==== Proof.KAccum.lean ====
/-
  The three accumulators across the 25 grid steps, as one recursion. Step t adds, to what step t − 1 left (to zero at
  step 0), the row sums of its hard block (the areas), the row sums of soft·hard (the numerators) and the product of
  its hard block with its transpose (the intersections). What the generated frame says each step leaves in the two
  output vectors and in the carried matrix is this recursion; at the last step the decay vector is the tail's payload
  over the completed matrix and areas.
-/
import proofs.«405678_j60876866453719_2_alg».proof.Proof.KSteps

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]
variable (m : (ℓ : Loc nD τ sig) → Buf (Elt F) ℓ) (ρ : Dev nD → PrngReg)

/-- The first index table's one-hot matrix as step `t` sees it (its one block is the whole 500 × 128 matrix). -/
abbrev ohx (c : Dev nD) (t : Fin cfg0.N) : Vec F S500x128 .f32 := iblk m c 0 t
/-- The second index table's one-hot matrix as step `t` sees it. -/
abbrev ohy (c : Dev nD) (t : Fin cfg0.N) : Vec F S500x128 .f32 := iblk m c 1 t
/-- Columns 2432·t … 2432·t + 2431 of the first flattened table. -/
abbrev tbx (c : Dev nD) (t : Fin cfg0.N) : Vec F S128x2432 .f32 := iblk m c 2 t
/-- Columns 2432·t … 2432·t + 2431 of the second flattened table. -/
abbrev tby (c : Dev nD) (t : Fin cfg0.N) : Vec F S128x2432 .f32 := iblk m c 3 t
/-- The label vector as step `t` sees it. -/
abbrev labs (c : Dev nD) (t : Fin cfg0.N) : Vec F S500 .i32 := iblk m c 4 t

/-- The accumulators after step `n`: areas, numerators, intersections. -/
def accAt (c : Dev nD) : (n : ℕ) → n < cfg0.N → Vec F S500 .f32 × Vec F S500 .f32 × Vec F S500x500 .f32
  | 0, h =>
    (k0_pay8 (ohx m c ⟨0, h⟩) (ohy m c ⟨0, h⟩) (tbx m c ⟨0, h⟩) (tby m c ⟨0, h⟩) (k0_pay4 (F := F)),
     k0_pay9 (ohx m c ⟨0, h⟩) (ohy m c ⟨0, h⟩) (tbx m c ⟨0, h⟩) (tby m c ⟨0, h⟩) (k0_pay5 (F := F)),
     k0_pay10 (ohx m c ⟨0, h⟩) (ohy m c ⟨0, h⟩) (tbx m c ⟨0, h⟩) (tby m c ⟨0, h⟩) (k0_pay3 (F := F)))
  | n + 1, h =>
    (k0_pay8 (ohx m c ⟨n + 1, h⟩) (ohy m c ⟨n + 1, h⟩) (tbx m c ⟨n + 1, h⟩) (tby m c ⟨n + 1, h⟩) (accAt c n (Nat.lt_of_succ_lt h)).1,
     k0_pay9 (ohx m c ⟨n + 1, h⟩) (ohy m c ⟨n + 1, h⟩) (tbx m c ⟨n + 1, h⟩) (tby m c ⟨n + 1, h⟩) (accAt c n (Nat.lt_of_succ_lt h)).2.1,
     k0_pay10 (ohx m c ⟨n + 1, h⟩) (ohy m c ⟨n + 1, h⟩) (tbx m c ⟨n + 1, h⟩) (tby m c ⟨n + 1, h⟩) (accAt c n (Nat.lt_of_succ_lt h)).2.2)

/-- The last step is step 24. -/
theorem h24 : 24 < cfg0.N := by rw [show cfg0.N = 25 from N_0]; decide

/-! ## One step of the frame, read as the three payloads -/

/-- The first step: each accumulator is its payload over the step's blocks and the zero the reset stored. -/
theorem step_first (c : Dev nD) (t : Fin cfg0.N) (h0 : t.val % 25 = 0) (h1 : ¬t.val % 25 = 24) :
    (outsAt0 m c t.val t.isLt).2
      = (k0_pay8 (ohx m c t) (ohy m c t) (tbx m c t) (tby m c t) (k0_pay4 (F := F)),
         k0_pay9 (ohx m c t) (ohy m c t) (tbx m c t) (tby m c t) (k0_pay5 (F := F)),
         k0_pay10 (ohx m c t) (ohy m c t) (tbx m c t) (tby m c t) (k0_pay3 (F := F))) := by
  rw [outsAt0_A m c t h0 h1]
  dsimp only
  exact congrArg₂ Prod.mk (Steps.area_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) ((hcond0_0 t).mpr h0) (fun h => h1 ((hcond0_1 t).mp h)) (iblk m c 0 t) (iblk m c 1 t) (iblk m c 2 t) (iblk m c 3 t) (iblk m c 4 t))
    (congrArg₂ Prod.mk (Steps.numer_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) ((hcond0_0 t).mpr h0) (fun h => h1 ((hcond0_1 t).mp h)) (iblk m c 0 t) (iblk m c 1 t) (iblk m c 2 t) (iblk m c 3 t) (iblk m c 4 t))
      (Steps.matrix_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) ((hcond0_0 t).mpr h0) (fun h => h1 ((hcond0_1 t).mp h)) (iblk m c 0 t) (iblk m c 1 t) (iblk m c 2 t) (iblk m c 3 t) (iblk m c 4 t)))

/-- A middle step: each accumulator is its payload over the step's blocks and what the step before left. -/
theorem step_middle (c : Dev nD) (t : Fin cfg0.N) (h0 : ¬t.val % 25 = 0) (h1 : ¬t.val % 25 = 24) :
    (outsAt0 m c t.val t.isLt).2
      = (k0_pay8 (ohx m c t) (ohy m c t) (tbx m c t) (tby m c t) (outsAt0 m c (t.val - 1) (Nat.lt_of_le_of_lt (Nat.sub_le t.val 1) t.isLt)).2.1,
         k0_pay9 (ohx m c t) (ohy m c t) (tbx m c t) (tby m c t) (outsAt0 m c (t.val - 1) (Nat.lt_of_le_of_lt (Nat.sub_le t.val 1) t.isLt)).2.2.1,
         k0_pay10 (ohx m c t) (ohy m c t) (tbx m c t) (tby m c t) (outsAt0 m c (t.val - 1) (Nat.lt_of_le_of_lt (Nat.sub_le t.val 1) t.isLt)).2.2.2) := by
  rw [outsAt0_B m c t h0 h1]
  dsimp only
  exact congrArg₂ Prod.mk (Steps.area_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2)
    (congrArg₂ Prod.mk (Steps.numer_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2)
      (Steps.matrix_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2))

/-- The last step, the three accumulators: as at a middle step. -/
theorem step_last (c : Dev nD) (t : Fin cfg0.N) (h0 : ¬t.val % 25 = 0) (h1 : t.val % 25 = 24) :
    (outsAt0 m c t.val t.isLt).2
      = (k0_pay8 (ohx m c t) (ohy m c t) (tbx m c t) (tby m c t) (outsAt0 m c (t.val - 1) (Nat.lt_of_le_of_lt (Nat.sub_le t.val 1) t.isLt)).2.1,
         k0_pay9 (ohx m c t) (ohy m c t) (tbx m c t) (tby m c t) (outsAt0 m c (t.val - 1) (Nat.lt_of_le_of_lt (Nat.sub_le t.val 1) t.isLt)).2.2.1,
         k0_pay10 (ohx m c t) (ohy m c t) (tbx m c t) (tby m c t) (outsAt0 m c (t.val - 1) (Nat.lt_of_le_of_lt (Nat.sub_le t.val 1) t.isLt)).2.2.2) := by
  rw [outsAt0_C m c t h0 h1]
  dsimp only
  exact congrArg₂ Prod.mk (Steps.area_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2)
    (congrArg₂ Prod.mk (Steps.numer_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2)
      (Steps.matrix_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2))

/-- The last step, the decay vector: the tail's payload over the matrix and the areas this step completes. -/
theorem step_last_decay (c : Dev nD) (t : Fin cfg0.N) (h0 : ¬t.val % 25 = 0) (h1 : t.val % 25 = 24) :
    (outsAt0 m c t.val t.isLt).1
      = k0_pay2 (k0_pay10 (ohx m c t) (ohy m c t) (tbx m c t) (tby m c t) (outsAt0 m c (t.val - 1) (Nat.lt_of_le_of_lt (Nat.sub_le t.val 1) t.isLt)).2.2.2) (k0_pay8 (ohx m c t) (ohy m c t) (tbx m c t) (tby m c t) (outsAt0 m c (t.val - 1) (Nat.lt_of_le_of_lt (Nat.sub_le t.val 1) t.isLt)).2.1) (labs m c t) := by
  rw [outsAt0_C m c t h0 h1]
  dsimp only
  exact Steps.decay_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2

/-! ## The recursion, unfolded one step -/

theorem accAt_succ (c : Dev nD) (n : ℕ) (h : n + 1 < cfg0.N) :
    accAt m c (n + 1) h
      = (k0_pay8 (ohx m c ⟨n + 1, h⟩) (ohy m c ⟨n + 1, h⟩) (tbx m c ⟨n + 1, h⟩) (tby m c ⟨n + 1, h⟩) (accAt m c n (Nat.lt_of_succ_lt h)).1,
         k0_pay9 (ohx m c ⟨n + 1, h⟩) (ohy m c ⟨n + 1, h⟩) (tbx m c ⟨n + 1, h⟩) (tby m c ⟨n + 1, h⟩) (accAt m c n (Nat.lt_of_succ_lt h)).2.1,
         k0_pay10 (ohx m c ⟨n + 1, h⟩) (ohy m c ⟨n + 1, h⟩) (tbx m c ⟨n + 1, h⟩) (tby m c ⟨n + 1, h⟩) (accAt m c n (Nat.lt_of_succ_lt h)).2.2) := rfl

/-- Step 23 precedes the last. -/
theorem h23 : 23 < cfg0.N := Nat.lt_of_succ_lt h24

theorem accAt_last (c : Dev nD) :
    accAt m c 24 h24
      = (k0_pay8 (ohx m c ⟨24, h24⟩) (ohy m c ⟨24, h24⟩) (tbx m c ⟨24, h24⟩) (tby m c ⟨24, h24⟩) (accAt m c 23 h23).1,
         k0_pay9 (ohx m c ⟨24, h24⟩) (ohy m c ⟨24, h24⟩) (tbx m c ⟨24, h24⟩) (tby m c ⟨24, h24⟩) (accAt m c 23 h23).2.1,
         k0_pay10 (ohx m c ⟨24, h24⟩) (ohy m c ⟨24, h24⟩) (tbx m c ⟨24, h24⟩) (tby m c ⟨24, h24⟩) (accAt m c 23 h23).2.2) := rfl

/-! ## The frame's contents are the recursion -/

/-- What the frame says the two output vectors and the carried matrix hold after step `n` is the recursion. -/
theorem outsAt_acc (c : Dev nD) : ∀ (n : ℕ) (h : n < cfg0.N), (outsAt0 m c n h).2 = accAt m c n h
  | 0, h => step_first m c ⟨0, h⟩ (Nat.zero_mod 25) (by show ¬0 % 25 = 24; decide)
  | n + 1, h => by
    have hN : cfg0.N = 25 := N_0
    have h0 : ¬(⟨n + 1, h⟩ : Fin cfg0.N).val % 25 = 0 := by dsimp only; omega
    have ih := outsAt_acc c n (Nat.lt_of_succ_lt h)
    have key : (outsAt0 m c (n + 1) h).2
        = (k0_pay8 (ohx m c ⟨n + 1, h⟩) (ohy m c ⟨n + 1, h⟩) (tbx m c ⟨n + 1, h⟩) (tby m c ⟨n + 1, h⟩) (outsAt0 m c n (Nat.lt_of_succ_lt h)).2.1,
           k0_pay9 (ohx m c ⟨n + 1, h⟩) (ohy m c ⟨n + 1, h⟩) (tbx m c ⟨n + 1, h⟩) (tby m c ⟨n + 1, h⟩) (outsAt0 m c n (Nat.lt_of_succ_lt h)).2.2.1,
           k0_pay10 (ohx m c ⟨n + 1, h⟩) (ohy m c ⟨n + 1, h⟩) (tbx m c ⟨n + 1, h⟩) (tby m c ⟨n + 1, h⟩) (outsAt0 m c n (Nat.lt_of_succ_lt h)).2.2.2) := by
      by_cases h1 : (⟨n + 1, h⟩ : Fin cfg0.N).val % 25 = 24
      · exact step_last m c ⟨n + 1, h⟩ h0 h1
      · exact step_middle m c ⟨n + 1, h⟩ h0 h1
    rw [accAt_succ, ← ih]
    exact key

/-- After the last step the decay vector's buffer holds the tail's payload over the completed matrix and areas. -/
theorem outsAt_decay (c : Dev nD) :
    (outsAt0 m c 24 h24).1 = k0_pay2 (accAt m c 24 h24).2.2 (accAt m c 24 h24).1 (labs m c ⟨24, h24⟩) := by
  have key := step_last_decay m c ⟨24, h24⟩ (by decide) rfl
  have ih := outsAt_acc m c 23 h23
  refine key.trans ?_
  rw [accAt_last]
  dsimp only
  rw [← ih]

/-! ## The three output arrays after the region -/

/-- Window 5 is written back at the last step only, and its one block, read through zero offsets, is the whole
    500-vector: what is written back is what the last step left in the staging buffer. -/
theorem flushed5_eq (c : Dev nD) (t : Fin cfg0.N) (hf : (cfg0.win 5).flush t = true) :
    (dats m 0 c).flushed 5 t = ((cfg0.win 5).blk t).view.read (Elt F) (k0_pay2 (accAt m c 24 h24).2.2 (accAt m c 24 h24).1 (labs m c ⟨24, h24⟩)) := by
  have hN : cfg0.N = 25 := N_0
  have ht : t.val = 24 := by have := (flush0_5 t).mp hf; have := t.isLt; omega
  obtain rfl : t = ⟨24, h24⟩ := Fin.ext ht
  show (cfg0.win 5).cut (grid0.coords ⟨24, h24⟩) ((dats m 0 c).after 5 ⟨24, h24⟩) = _
  rw [after0_5, outsAt_decay]
  have hz : (fun a => win0_5.index ⟨24, h24⟩ a * main_v4_0.ty.shape.size a) = fun _ => 0 :=
    funext fun a => by fin_cases a; decide +kernel
  exact (Memref.read_access_unit_zero (Elt F) main_v4_0 hz (fun a => by rw [congrFun hz a]; simp) (k0_pay2 (accAt m c 24 h24).2.2 (accAt m c 24 h24).1 (labs m c ⟨24, h24⟩))).symm

/-- The decay array after the region: written back once, after the last step. -/
theorem final_decay (c : Dev nD) : (dats m 0 c).arrAt 5 cfg0.N = k0_pay2 (accAt m c 24 h24).2.2 (accAt m c 24 h24).1 (labs m c ⟨24, h24⟩) :=
  (dats m 0 c).arrAt_eq_of_cover 5 (k0_pay2 (accAt m c 24 h24).2.2 (accAt m c 24 h24).1 (labs m c ⟨24, h24⟩)) (flushed5_eq m c) fun i =>
    ⟨⟨24, h24⟩, (flush0_5 ⟨24, h24⟩).mpr rfl, by
      show i ∈ ((View.whole main_v4_0).slice (win0_5.rect ⟨24, h24⟩)).set
      rw [View.set_slice_whole, Rect.mem_set_unit]
      intro a
      have hi : (i 0 : Nat) < 500 := (i 0).isLt
      match a with
      | ⟨0, _⟩ =>
        show win0_5.index ⟨24, h24⟩ 0 * win0_5.size 0 ≤ (i 0 : Nat)
          ∧ (i 0 : Nat) < win0_5.index ⟨24, h24⟩ 0 * win0_5.size 0 + win0_5.xsize (grid0.coords ⟨24, h24⟩) 0
        rw [show win0_5.index ⟨24, h24⟩ 0 * win0_5.size 0 = 0 from by decide +kernel,
          show win0_5.xsize (grid0.coords ⟨24, h24⟩) 0 = 500 from by decide +kernel]
        omega⟩

/-- Window 6 is written back at the last step only, and its one block, read through zero offsets, is the whole
    500-vector: what is written back is what the last step left in the staging buffer. -/
theorem flushed6_eq (c : Dev nD) (t : Fin cfg0.N) (hf : (cfg0.win 6).flush t = true) :
    (dats m 0 c).flushed 6 t = ((cfg0.win 6).blk t).view.read (Elt F) (accAt m c 24 h24).1 := by
  have hN : cfg0.N = 25 := N_0
  have ht : t.val = 24 := by have := (flush0_6 t).mp hf; have := t.isLt; omega
  obtain rfl : t = ⟨24, h24⟩ := Fin.ext ht
  show (cfg0.win 6).cut (grid0.coords ⟨24, h24⟩) ((dats m 0 c).after 6 ⟨24, h24⟩) = _
  rw [after0_6, outsAt_acc]
  have hz : (fun a => win0_6.index ⟨24, h24⟩ a * main_v4_1.ty.shape.size a) = fun _ => 0 :=
    funext fun a => by fin_cases a; decide +kernel
  exact (Memref.read_access_unit_zero (Elt F) main_v4_1 hz (fun a => by rw [congrFun hz a]; simp) (accAt m c 24 h24).1).symm

/-- The area array after the region. -/
theorem final_area (c : Dev nD) : (dats m 0 c).arrAt 6 cfg0.N = (accAt m c 24 h24).1 :=
  (dats m 0 c).arrAt_eq_of_cover 6 (accAt m c 24 h24).1 (flushed6_eq m c) fun i =>
    ⟨⟨24, h24⟩, (flush0_6 ⟨24, h24⟩).mpr rfl, by
      show i ∈ ((View.whole main_v4_1).slice (win0_6.rect ⟨24, h24⟩)).set
      rw [View.set_slice_whole, Rect.mem_set_unit]
      intro a
      have hi : (i 0 : Nat) < 500 := (i 0).isLt
      match a with
      | ⟨0, _⟩ =>
        show win0_6.index ⟨24, h24⟩ 0 * win0_6.size 0 ≤ (i 0 : Nat)
          ∧ (i 0 : Nat) < win0_6.index ⟨24, h24⟩ 0 * win0_6.size 0 + win0_6.xsize (grid0.coords ⟨24, h24⟩) 0
        rw [show win0_6.index ⟨24, h24⟩ 0 * win0_6.size 0 = 0 from by decide +kernel,
          show win0_6.xsize (grid0.coords ⟨24, h24⟩) 0 = 500 from by decide +kernel]
        omega⟩

/-- Window 7 is written back at the last step only, and its one block, read through zero offsets, is the whole
    500-vector: what is written back is what the last step left in the staging buffer. -/
theorem flushed7_eq (c : Dev nD) (t : Fin cfg0.N) (hf : (cfg0.win 7).flush t = true) :
    (dats m 0 c).flushed 7 t = ((cfg0.win 7).blk t).view.read (Elt F) (accAt m c 24 h24).2.1 := by
  have hN : cfg0.N = 25 := N_0
  have ht : t.val = 24 := by have := (flush0_7 t).mp hf; have := t.isLt; omega
  obtain rfl : t = ⟨24, h24⟩ := Fin.ext ht
  show (cfg0.win 7).cut (grid0.coords ⟨24, h24⟩) ((dats m 0 c).after 7 ⟨24, h24⟩) = _
  rw [after0_7, outsAt_acc]
  have hz : (fun a => win0_7.index ⟨24, h24⟩ a * main_v4_2.ty.shape.size a) = fun _ => 0 :=
    funext fun a => by fin_cases a; decide +kernel
  exact (Memref.read_access_unit_zero (Elt F) main_v4_2 hz (fun a => by rw [congrFun hz a]; simp) (accAt m c 24 h24).2.1).symm

/-- The numerator array after the region. -/
theorem final_numer (c : Dev nD) : (dats m 0 c).arrAt 7 cfg0.N = (accAt m c 24 h24).2.1 :=
  (dats m 0 c).arrAt_eq_of_cover 7 (accAt m c 24 h24).2.1 (flushed7_eq m c) fun i =>
    ⟨⟨24, h24⟩, (flush0_7 ⟨24, h24⟩).mpr rfl, by
      show i ∈ ((View.whole main_v4_2).slice (win0_7.rect ⟨24, h24⟩)).set
      rw [View.set_slice_whole, Rect.mem_set_unit]
      intro a
      have hi : (i 0 : Nat) < 500 := (i 0).isLt
      match a with
      | ⟨0, _⟩ =>
        show win0_7.index ⟨24, h24⟩ 0 * win0_7.size 0 ≤ (i 0 : Nat)
          ∧ (i 0 : Nat) < win0_7.index ⟨24, h24⟩ 0 * win0_7.size 0 + win0_7.xsize (grid0.coords ⟨24, h24⟩) 0
        rw [show win0_7.index ⟨24, h24⟩ 0 * win0_7.size 0 = 0 from by decide +kernel,
          show win0_7.xsize (grid0.coords ⟨24, h24⟩) 0 = 500 from by decide +kernel]
        omega⟩

end Cert.KernelIdeal.Accum

end
-- ==== Proof.KRun.lean ====
/-
  The kernel program's run, read: every execution ends, and the result buffer holds
  score · (numerator / max (area, 1)) · decay of the three arrays the region leaves — the completed accumulators and
  the tail's payload over them — the six argument arrays unchanged. The host operations after the region are a
  constant 1, its broadcast, a maximum, a quotient and two products.
-/
import proofs.«405678_j60876866453719_2_alg».proof.Proof.KAccum
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Accum

variable {F : FTy → Type} [FloatOps F]
variable (m : (ℓ : Loc nD τ sig) → Buf (Elt F) ℓ) (ρ : Dev nD → PrngReg)

/-- The host operations after the region, as one function of the score vector and of the decay, area and numerator
    vectors the region leaves. -/
def hostTail (cs dec area num : FVec F S500 .f32) : FVec F S500 .f32 :=
  mulf (mulf cs (Host.divf (F := F) num (maximumf area (broadcastInDim S500 ![] bcast_S_S500 (constant (F := F) S_ .f32 0x3F800000#32))))) dec

/-- The result the kernel program leaves on core `c`. -/
def kres (c : Dev nD) : Buf (Elt F) ((c.tc : Thread nD τ).loc main_v9) :=
  hostTail (m ((c.tc : Thread nD τ).loc main_arg0))
    (k0_pay2 (accAt m c 24 h24).2.2 (accAt m c 24 h24).1 (labs m c ⟨24, h24⟩))
    (accAt m c 24 h24).1 (accAt m c 24 h24).2.1

/-- The tail's result buffer after the host operations: they read the decay, area and numerator arrays as the region
    leaves them (windows 5, 6 and 7 of the pipeline) and the score vector, which neither the region nor any host
    operation writes. -/
theorem tail_v9 (c : Dev nD) :
    Pipeline.afterTail₀ cfgs (dats m) 0 (V0 m) [hostOps1] c main_v9 = kres m c := by
  unfold Pipeline.afterTail₀
  show StableHlo.after hostOps1 _ (Proc.devRef .tc main_v9) = _
  open StableHlo in after_results
  -- the three arrays the region leaves
  have e0 := (Pipeline.withArrays_arr spec0 launch0.win.arr_inj c (V0 m c)
    (fun w => (dats m 0 c).arrAt w (cfgs 0).N) 5).trans (final_decay m c)
  have e1 := (Pipeline.withArrays_arr spec0 launch0.win.arr_inj c (V0 m c)
    (fun w => (dats m 0 c).arrAt w (cfgs 0).N) 6).trans (final_area m c)
  have e2 := (Pipeline.withArrays_arr spec0 launch0.win.arr_inj c (V0 m c)
    (fun w => (dats m 0 c).arrAt w (cfgs 0).N) 7).trans (final_numer m c)
  -- the score vector is no window's array, and no host operation before the region writes it
  have e3 : Pipeline.withArrays (cfgs 0).spec c (V0 m c) (fun w => (dats m 0 c).arrAt w (cfgs 0).N)
      (Proc.devRef .tc main_arg0) = m ((c.tc : Thread nD τ).loc main_arg0) :=
    (Pipeline.withArrays_of_ne spec0 c (V0 m c) _ main_arg0
      (by exact (by decide : ∀ w, Pipeline.arrRef spec0 w ≠ main_arg0))).trans (V_main_arg0 m c)
  unfold kres hostTail
  rw [e3]
  erw [e0, e1, e2]

/-- The run, read. -/
theorem run : θ_run defs (onTc (τ := τ) (main (F := F))) ⟨m, fun _ => 0, ρ⟩ fun r => ∀ c : Dev nD,
      r.2.mem ((c.tc : Thread nD τ).loc main_v9) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (tail_v9 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.Spec.lean ====
/-
  The function both programs compute, written once over the extended reals.

  Inputs: two tables of 128 rows of 60800 = 200·304 scores, two index vectors choosing a row of each table for every
  one of 500 candidates, a label per candidate and a score per candidate.

  * the SOFT mask of candidate n at pixel p is the product of its two chosen rows at p, the HARD mask is 1 where the soft
    mask exceeds the threshold 0.005 and 0 elsewhere;
  * the AREA of n is the sum of its hard mask, its NUMERATOR the sum of soft·hard, and the INTERSECTION of i and j the sum
    of hard(i)·hard(j), all over the 60800 pixels;
  * the same-class overlap of an ordered pair i < j is inter / max (area i + area j − inter, 1e-6) when the labels agree
    (zero otherwise, and zero on and below the diagonal); the compensation of a column is the maximum of its overlaps;
    the decay of column j is the minimum over i of exp (−2·overlap(i, j)²) / exp (−2·comp(i)²);
  * the result at n is score(n) · (numerator / max (area, 1)) · decay(n).

  Sums carry no starting term here (the programs' starting zeros are removed where they are read) and the maximum and the
  minimum start from the programs' own −∞ and +∞ patterns. Nothing in this module mentions a program.
-/
import Idealize.ShloMosaic.PureOps.Ideal
import Idealize.ShloMosaic.PureOps.Ideal.Laws
import Idealize.ShloMosaic.Lib.ValueIdx

noncomputable section

namespace Cert.Nms

open Idealize.ShloMosaic Idealize.ShloMosaic.ValueIdx

/-- The shape of a table: 128 rows of 200 × 304 scores. -/
abbrev STab : Shape := ⟨3, ![128, 200, 304]⟩
/-- The shape of a per-candidate vector. -/
abbrev SVec : Shape := ⟨1, ![500]⟩

/-- The mask threshold, the f32 nearest 0.005. -/
def thr : EReal := Ideal.ofBits .f32 0x3BA3D70A#32
/-- The floor under a union, the f32 nearest 1e-6. -/
def eps : EReal := Ideal.ofBits .f32 0x358637BD#32
/-- The factor −2 of the Gaussian decay. -/
def negTwo : EReal := Ideal.ofBits .f32 0xC0000000#32
/-- The floor 1 under an area. -/
def oneF : EReal := Ideal.ofBits .f32 0x3F800000#32
/-- The start of a maximum: the −∞ pattern. -/
def negInf : EReal := Ideal.ofBits .f32 0xFF800000#32
/-- The start of a minimum: the +∞ pattern. -/
def posInf : EReal := Ideal.ofBits .f32 0x7F800000#32

/-- A truth bit as a number: 1 for true, 0 for false. -/
def bit (b : BitVec 1) : EReal := if b = 1#1 then 1 else 0

theorem bit_one : bit 1#1 = 1 := if_pos rfl
theorem bit_zero : bit 0#1 = 0 := if_neg (by decide)

/-- The hard mask of a soft value: 1 above the threshold, else 0. -/
def hardOf (s : EReal) : EReal := bit (Ideal.cmp .ogt s thr)

section Masks

variable (X Y : Fin 500 → Fin 60800 → EReal)

/-- The soft mask of candidate `n` at pixel `p`. -/
def soft (n : Fin 500) (p : Fin 60800) : EReal := X n p * Y n p
/-- The hard mask of candidate `n` at pixel `p`. -/
def hard (n : Fin 500) (p : Fin 60800) : EReal := hardOf (soft X Y n p)
/-- The area of candidate `n`'s hard mask. -/
def area (n : Fin 500) : EReal := ∑ p : Fin 60800, hard X Y n p
/-- The sum of candidate `n`'s soft mask over its hard mask. -/
def numer (n : Fin 500) : EReal := ∑ p : Fin 60800, soft X Y n p * hard X Y n p
/-- The number of pixels the hard masks of `i` and `j` share. -/
def inter (i j : Fin 500) : EReal := ∑ p : Fin 60800, hard X Y i p * hard X Y j p

end Masks

section Decay

variable (I : Fin 500 → Fin 500 → EReal) (A : Fin 500 → EReal) (lab : Fin 500 → BitVec 32)

/-- Intersection over (floored) union of the pair `i`, `j`. -/
def iou (i j : Fin 500) : EReal := Ideal.div (I i j) (max (A i + A j - I i j) eps)
/-- The same-class overlap of the ordered pair: the pair's intersection over union when `i < j` and the labels agree. -/
def overlap (i j : Fin 500) : EReal :=
  if i < j then iou I A i j * bit (IntOp.cmpi .eq (lab i) (lab j)) else 0
/-- The largest overlap in column `j`. -/
def comp (j : Fin 500) : EReal := (Finset.univ : Finset (Fin 500)).fold max negInf fun i => overlap I A lab i j
/-- The Gaussian decay of column `j`: the least ratio of its own decays to the rows' compensations. -/
def decay (j : Fin 500) : EReal :=
  (Finset.univ : Finset (Fin 500)).fold min posInf fun i =>
    Ideal.div (Ideal.exp (negTwo * (overlap I A lab i j * overlap I A lab i j)))
      (Ideal.exp (negTwo * (comp I A lab i * comp I A lab i)))

end Decay

/-- The rows an index vector chooses from a table, each flattened to 60800 pixels (pixel `p` is row `p / 304`,
    column `p % 304` of the 200 × 304 picture). An index word is read through its low seven bits: on words below
    128, the only ones the precondition admits, that is the word itself. -/
def rows (tab : STab.Idx → EReal) (idx : SVec.Idx → BitVec 32) : Fin 500 → Fin 60800 → EReal := fun n p =>
  tab (ix3 (⟨(idx (ix1 n)).toNat % 128, Nat.mod_lt _ (by decide)⟩ : Fin 128)
    (⟨p.val / 304, by have := p.isLt; omega⟩ : Fin 200) (⟨p.val % 304, Nat.mod_lt _ (by decide)⟩ : Fin 304))

/-- The rescored and decayed score of candidate `n`. -/
def score (cs : SVec.Idx → EReal) (tx ty : STab.Idx → EReal) (lab ixs iys : SVec.Idx → BitVec 32) (n : Fin 500) : EReal :=
  (cs (ix1 n) * Ideal.div (numer (rows tx ixs) (rows ty iys) n) (max (area (rows tx ixs) (rows ty iys) n) oneF))
    * decay (inter (rows tx ixs) (rows ty iys)) (area (rows tx ixs) (rows ty iys)) (fun i => lab (ix1 i)) n

/-- The whole result vector. -/
def result (cs : SVec.Idx → EReal) (tx ty : STab.Idx → EReal) (lab ixs iys : SVec.Idx → BitVec 32) : SVec.Idx → EReal :=
  fun j => score cs tx ty lab ixs iys (j 0)

theorem result_apply (cs : SVec.Idx → EReal) (tx ty : STab.Idx → EReal) (lab ixs iys : SVec.Idx → BitVec 32) (n : Fin 500) :
    result cs tx ty lab ixs iys (ix1 n) = score cs tx ty lab ixs iys n := rfl

end Cert.Nms

end
-- ==== Proof.KHost.lean ====
/-
  What the region finds in its arrays, and what a window's block is at a grid step.
  Before the region the host builds, from each index vector, its one-hot matrix — entry (n, g) is 1 where
  index n equals g and 0 elsewhere — and flattens each 128 × 200 × 304 table to 128 × 60800 (row-major, so pixel
  p = 304·h + w). The two one-hot matrices and the label vector are each one whole block at every step; step t's block
  of a flattened table is its columns 2432·t … 2432·t + 2431.
-/
import proofs.«405678_j60876866453719_2_alg».proof.Proof.KAccum
import proofs.«405678_j60876866453719_2_alg».proof.Proof.Spec
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Host

open Cert.KernelIdeal Cert.KernelIdeal.Gen Cert.KernelIdeal.Accum

variable {F : FTy → Type} [FloatOps F]
variable (m : (ℓ : Loc nD τ sig) → Buf (Elt F) ℓ)

/-- The one-hot matrix of an index vector, as the host computes it: the vector spread along the rows compared for
    equality with 0 … 127 spread along the columns, the truth bit converted to a float. -/
def oneHot (idx : IVec S500 32) : FVec F S500x128 .f32 :=
  uitofp .f32 (cmpi .eq
    (broadcastInDim S500x128 ![0, 1] bcast_S500x1_S500x128_0_1 (broadcastInDim S500x1 ![0] bcast_S500_S500x1_0 idx))
    (broadcastInDim S500x128 ![0, 1] bcast_S1x128_S500x128_0_1 (iotaInDim S1x128 32 1)))

/-- A table flattened to 128 × 60800. -/
def flat (tab : FVec F S128x200x304 .f32) : FVec F S128x60800 .f32 :=
  shapeCast S128x60800 tab shapeCasts_S128x200x304_S128x60800

theorem V_onehot_x (c : Dev nD) : V m c main_v0 = oneHot (F := F) (m ((c.tc : Thread nD τ).loc main_arg4)) := by
  dsimp only [Gen.V, Gen.V0]
  simp only [Gen.hostOps0, Gen.hostOps0_1, Gen.hostOps0_2, List.flatten_cons, List.flatten_nil, List.append_nil,
    List.cons_append, List.nil_append]
  after_results
  rfl

theorem V_onehot_y (c : Dev nD) : V m c main_v1 = oneHot (F := F) (m ((c.tc : Thread nD τ).loc main_arg5)) := by
  dsimp only [Gen.V, Gen.V0]
  simp only [Gen.hostOps0, Gen.hostOps0_1, Gen.hostOps0_2, List.flatten_cons, List.flatten_nil, List.append_nil,
    List.cons_append, List.nil_append]
  after_results
  rfl

theorem V_flat_x (c : Dev nD) : V m c main_v2 = flat (F := F) (m ((c.tc : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results
  rfl

theorem V_flat_y (c : Dev nD) : V m c main_v3 = flat (F := F) (m ((c.tc : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results
  rfl

/-- The first one-hot matrix is one whole block at every step. -/
theorem ohx_eq (c : Dev nD) (t : Fin cfg0.N) : ohx m c t = V m c main_v0 := by
  show ((cfg0.win 0).blk t).view.read (Elt F) (V m c (Pipeline.arrRef spec0 0)) = _
  have hz : (fun a => win0_0.index t a * main_v0.ty.shape.size a) = fun _ => 0 :=
    funext fun a => (by decide +kernel : ∀ (t : Fin grid0.N) a, win0_0.index t a * main_v0.ty.shape.size a = 0) t a
  exact Memref.read_access_unit_zero (Elt F) main_v0 hz (fun a => by rw [congrFun hz a]; simp) (V m c main_v0)

theorem ohy_eq (c : Dev nD) (t : Fin cfg0.N) : ohy m c t = V m c main_v1 := by
  show ((cfg0.win 1).blk t).view.read (Elt F) (V m c (Pipeline.arrRef spec0 1)) = _
  have hz : (fun a => win0_1.index t a * main_v1.ty.shape.size a) = fun _ => 0 :=
    funext fun a => (by decide +kernel : ∀ (t : Fin grid0.N) a, win0_1.index t a * main_v1.ty.shape.size a = 0) t a
  exact Memref.read_access_unit_zero (Elt F) main_v1 hz (fun a => by rw [congrFun hz a]; simp) (V m c main_v1)

/-- The label vector is one whole block at every step, and no host operation writes it. -/
theorem labs_eq (c : Dev nD) (t : Fin cfg0.N) : labs m c t = m ((c.tc : Thread nD τ).loc main_arg3) := by
  show ((cfg0.win 4).blk t).view.read (Elt F) (V m c (Pipeline.arrRef spec0 4)) = _
  have hz : (fun a => win0_4.index t a * main_arg3.ty.shape.size a) = fun _ => 0 :=
    funext fun a => (by decide +kernel : ∀ (t : Fin grid0.N) a, win0_4.index t a * main_arg3.ty.shape.size a = 0) t a
  exact (Memref.read_access_unit_zero (Elt F) main_arg3 hz (fun a => by rw [congrFun hz a]; simp) (V m c main_arg3)).trans
    (V_main_arg3 m c)

/-- Step `t`'s block of the first flattened table at (g, k) is the table at column 2432·t + k. -/
theorem tbx_apply (c : Dev nD) (t : Fin cfg0.N) (g : Fin 128) (k : Fin 2432) :
    tbx m c t (ix2 g k)
      = V m c main_v2 (ix2 g (⟨t.val * 2432 + k.val, by have := t.isLt; have h : cfg0.N = 25 := N_0; have := k.isLt; omega⟩ : Fin 60800)) := by
  -- the block's place: row block 0, column block t
  have hi : win0_2.index t 0 = 0 ∧ win0_2.index t 1 = t.val :=
    (by decide +kernel : ∀ t : Fin grid0.N, win0_2.index t 0 = 0 ∧ win0_2.index t 1 = t.val) t
  show iblk m c 2 t (ix2 g k) = _
  unfold iblk
  rw [View.read_apply]
  show V m c main_v2 _ = V m c main_v2 _
  congr 1
  funext a
  apply Fin.ext
  -- per axis the array coordinate is (block index) × (block extent) + (coordinate inside the block)
  match a with
  | ⟨0, _⟩ => show win0_2.index t 0 * 128 + 1 * g.val = g.val; rw [hi.1]; omega
  | ⟨1, _⟩ => show win0_2.index t 1 * 2432 + 1 * k.val = t.val * 2432 + k.val; rw [hi.2]; omega

theorem tby_apply (c : Dev nD) (t : Fin cfg0.N) (g : Fin 128) (k : Fin 2432) :
    tby m c t (ix2 g k)
      = V m c main_v3 (ix2 g (⟨t.val * 2432 + k.val, by have := t.isLt; have h : cfg0.N = 25 := N_0; have := k.isLt; omega⟩ : Fin 60800)) := by
  -- the block's place: row block 0, column block t
  have hi : win0_3.index t 0 = 0 ∧ win0_3.index t 1 = t.val :=
    (by decide +kernel : ∀ t : Fin grid0.N, win0_3.index t 0 = 0 ∧ win0_3.index t 1 = t.val) t
  show iblk m c 3 t (ix2 g k) = _
  unfold iblk
  rw [View.read_apply]
  show V m c main_v3 _ = V m c main_v3 _
  congr 1
  funext a
  apply Fin.ext
  -- per axis the array coordinate is (block index) × (block extent) + (coordinate inside the block)
  match a with
  | ⟨0, _⟩ => show win0_3.index t 0 * 128 + 1 * g.val = g.val; rw [hi.1]; omega
  | ⟨1, _⟩ => show win0_3.index t 1 * 2432 + 1 * k.val = t.val * 2432 + k.val; rw [hi.2]; omega

/-- The one-hot matrix at (n, g), over the extended reals: the bit "index n is the word g". -/
theorem oneHot_apply (idx : IVec S500 32) (n : Fin 500) (g : Fin 128) :
    oneHot (F := Ideal) idx (ix2 n g) = Cert.Nms.bit (IntOp.cmpi .eq (idx (ix1 n)) (BitVec.ofNat 32 g.val)) := by
  have e2 : (ix2 n g : S500x128.Idx) = StableHlo.Predicate.ij n g := by
    funext d; match d with | ⟨0, _⟩ => rfl | ⟨1, _⟩ => rfl
  have e1 : (Shape.Idx.ofFin n : S500.Idx) = ix1 n := by
    funext d; match d with | ⟨0, _⟩ => rfl
  -- the index vector spread along the rows reads, at (n, g), the vector at n
  have hA : broadcastInDim S500x128 ![0, 1] bcast_S500x1_S500x128_0_1
      (broadcastInDim S500x1 ![0] bcast_S500_S500x1_0 idx) (ix2 n g) = idx (ix1 n) := by
    rw [e2, ← e1]; exact StableHlo.Predicate.bcast_rows _ _ idx n g
  -- the row 0 … 127 spread down the columns reads, at (n, g), the word g
  have hB : broadcastInDim S500x128 ![0, 1] bcast_S1x128_S500x128_0_1 (iotaInDim S1x128 32 1) (ix2 n g)
      = BitVec.ofNat 32 g.val := by
    rw [e2]; exact (StableHlo.Predicate.bcast_of_row _ (iotaInDim S1x128 32 1) n g).trans rfl
  show FloatOps.uitofp (F := Ideal) .f32 (IntOp.cmpi .eq
      (broadcastInDim S500x128 ![0, 1] bcast_S500x1_S500x128_0_1
        (broadcastInDim S500x1 ![0] bcast_S500_S500x1_0 idx) (ix2 n g))
      (broadcastInDim S500x128 ![0, 1] bcast_S1x128_S500x128_0_1 (iotaInDim S1x128 32 1) (ix2 n g))) = _
  rw [hA, hB]
  -- a one-bit word read unsigned is 0 or 1
  rcases BitVec.eq_zero_or_eq_one (IntOp.cmpi .eq (idx (ix1 n)) (BitVec.ofNat 32 g.val)) with h | h
  · rw [h, Cert.Nms.bit_zero]
    show (((0#1 : BitVec 1).toNat : ℝ) : EReal) = 0
    simp
  · rw [h, Cert.Nms.bit_one]
    show (((1#1 : BitVec 1).toNat : ℝ) : EReal) = 1
    simp

/-- A flattened table at (g, p) is the table at (g, p / 304, p % 304). -/
theorem flat_apply (tab : FVec F S128x200x304 .f32) (g : Fin 128) (p : Fin 60800) :
    flat tab (ix2 g p)
      = tab (ix3 g (⟨p.val / 304, by have := p.isLt; omega⟩ : Fin 200) (⟨p.val % 304, Nat.mod_lt _ (by decide)⟩ : Fin 304)) := by
  unfold flat
  -- both indices have row-major position 60800·g + p, since 304·(p / 304) + p % 304 = p
  exact shapeCast_apply tab shapeCasts_S128x200x304_S128x60800 (ix2 g p) _
    (by rewrite [Shape.rowMajor_val_three, Shape.rowMajor_val_two]
        have hg : g.val < 128 := g.isLt
        have hp : p.val < 60800 := p.isLt
        show (g.val * 200 + p.val / 304) * 304 + p.val % 304 = g.val * 60800 + p.val
        omega)

end Cert.KernelIdeal.Host

end
-- ==== Proof.KBlock.lean ====
/-
  One grid step's arithmetic read at an index, over the extended reals. With o, o' the two one-hot matrices and
  t, t' the step's two table blocks: the soft block at (n, k) is (Σ_g o(n, g)·t(g, k)) · (Σ_g o'(n, g)·t'(g, k)); the
  hard block is its threshold bit; the area update adds, at n, the sum over the block's 2432 columns of the hard block;
  the numerator update the sum of soft·hard; the matrix update adds, at (i, j), the sum over the columns of
  hard(i, ·)·hard(j, ·). A change of float format is the identity, a matrix product into a zero accumulator is the
  plain sum of products, a lane reduction is the plain sum.
-/
import proofs.«405678_j60876866453719_2_alg».proof.Proof.Gen.KernelIdeal.Skeleton
import proofs.«405678_j60876866453719_2_alg».proof.Proof.Spec
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Block

open Cert.KernelIdeal Cert.KernelIdeal.Gen

/-! ## The first product: a one-hot matrix [500, 128] times a table block [128, 2432]

The contraction runs over the left operand's axis 1 and the right operand's axis 0; the result's row is the left
operand's row, the result's column the right operand's column. -/

theorem lhs_pick_0 (i : S500x2432.Idx) (q : dot_S500x128_S128x2432_S500x2432_1_0_0_1_n_n.contr.Idx) :
    (dot_S500x128_S128x2432_S500x2432_1_0_0_1_n_n.lhsIdx i q 0).val = (i 0).val := by
  unfold DotDims.lhsIdx
  rw [dif_neg (show ¬(0 : Fin S500x128.rank) ∈ dot_S500x128_S128x2432_S500x2432_1_0_0_1_n_n.lhsBatch by decide), dif_pos (show (0 : Fin S500x128.rank) ∈ dot_S500x128_S128x2432_S500x2432_1_0_0_1_n_n.lhsNonContracting by decide)]
  rfl
theorem lhs_pick_1 (i : S500x2432.Idx) (q : dot_S500x128_S128x2432_S500x2432_1_0_0_1_n_n.contr.Idx) :
    (dot_S500x128_S128x2432_S500x2432_1_0_0_1_n_n.lhsIdx i q 1).val = (q ⟨0, by decide⟩).val :=
  dot_S500x128_S128x2432_S500x2432_1_0_0_1_n_n.lhsIdx_val_of_single rfl i q
theorem rhs_pick_0 (i : S500x2432.Idx) (q : dot_S500x128_S128x2432_S500x2432_1_0_0_1_n_n.contr.Idx) :
    (dot_S500x128_S128x2432_S500x2432_1_0_0_1_n_n.rhsIdx i q 0).val = (q ⟨0, by decide⟩).val :=
  dot_S500x128_S128x2432_S500x2432_1_0_0_1_n_n.rhsIdx_val_of_single rfl i q
theorem rhs_pick_1 (i : S500x2432.Idx) (q : dot_S500x128_S128x2432_S500x2432_1_0_0_1_n_n.contr.Idx) :
    (dot_S500x128_S128x2432_S500x2432_1_0_0_1_n_n.rhsIdx i q 1).val = (i 1).val := by
  unfold DotDims.rhsIdx
  rw [dif_neg (show ¬(1 : Fin S128x2432.rank) ∈ dot_S500x128_S128x2432_S500x2432_1_0_0_1_n_n.rhsBatch by decide), dif_pos (show (1 : Fin S128x2432.rank) ∈ dot_S500x128_S128x2432_S500x2432_1_0_0_1_n_n.rhsNonContracting by decide)]
  rfl

/-! ## The second product: the hard block [500, 2432] times its own transpose

The contraction runs over axis 1 of both operands; the result's row is the left operand's row, the result's column
the right operand's row. -/

theorem lhs_gram_0 (i : S500x500.Idx) (q : dot_S500x2432_S500x2432_S500x500_1_1_0_0_n_n.contr.Idx) :
    (dot_S500x2432_S500x2432_S500x500_1_1_0_0_n_n.lhsIdx i q 0).val = (i 0).val := by
  unfold DotDims.lhsIdx
  rw [dif_neg (show ¬(0 : Fin S500x2432.rank) ∈ dot_S500x2432_S500x2432_S500x500_1_1_0_0_n_n.lhsBatch by decide), dif_pos (show (0 : Fin S500x2432.rank) ∈ dot_S500x2432_S500x2432_S500x500_1_1_0_0_n_n.lhsNonContracting by decide)]
  rfl
theorem lhs_gram_1 (i : S500x500.Idx) (q : dot_S500x2432_S500x2432_S500x500_1_1_0_0_n_n.contr.Idx) :
    (dot_S500x2432_S500x2432_S500x500_1_1_0_0_n_n.lhsIdx i q 1).val = (q ⟨0, by decide⟩).val :=
  dot_S500x2432_S500x2432_S500x500_1_1_0_0_n_n.lhsIdx_val_of_single rfl i q
theorem rhs_gram_0 (i : S500x500.Idx) (q : dot_S500x2432_S500x2432_S500x500_1_1_0_0_n_n.contr.Idx) :
    (dot_S500x2432_S500x2432_S500x500_1_1_0_0_n_n.rhsIdx i q 0).val = (i 1).val := by
  unfold DotDims.rhsIdx
  rw [dif_neg (show ¬(0 : Fin S500x2432.rank) ∈ dot_S500x2432_S500x2432_S500x500_1_1_0_0_n_n.rhsBatch by decide), dif_pos (show (0 : Fin S500x2432.rank) ∈ dot_S500x2432_S500x2432_S500x500_1_1_0_0_n_n.rhsNonContracting by decide)]
  rfl
theorem rhs_gram_1 (i : S500x500.Idx) (q : dot_S500x2432_S500x2432_S500x500_1_1_0_0_n_n.contr.Idx) :
    (dot_S500x2432_S500x2432_S500x500_1_1_0_0_n_n.rhsIdx i q 1).val = (q ⟨0, by decide⟩).val :=
  dot_S500x2432_S500x2432_S500x500_1_1_0_0_n_n.rhsIdx_val_of_single rfl i q

/-- The product of a block with its own transpose into the zero accumulator, at (i, j), is the sum over the 2432
    columns of the products of rows i and j. -/
theorem gram_apply (v w : FVec Ideal S500x2432 .bf16) (i j : Fin 500) :
    matmul dot_S500x2432_S500x2432_S500x500_1_1_0_0_n_n none v w (constant (F := Ideal) S500x500 .f32 0x00000000#32) (ix2 i j)
      = ∑ k : Fin 2432, v (ix2 i k) * w (ix2 j k) := by
  simp only [matmul]
  rw [Ideal.matmul_constant_zero_apply, ← Equiv.sum_comp (ValueIdx.contrEquiv1 dot_S500x2432_S500x2432_S500x500_1_1_0_0_n_n 2432 rfl rfl).symm]
  refine Finset.sum_congr rfl fun k _ => ?_
  have hk := ValueIdx.contrEquiv1_symm_val dot_S500x2432_S500x2432_S500x500_1_1_0_0_n_n 2432 rfl rfl k
  have el : dot_S500x2432_S500x2432_S500x500_1_1_0_0_n_n.lhsIdx (ix2 i j) ((ValueIdx.contrEquiv1 dot_S500x2432_S500x2432_S500x500_1_1_0_0_n_n 2432 rfl rfl).symm k) = ix2 i k := funext fun a => Fin.ext (by
    match a with
    | ⟨0, _⟩ => exact lhs_gram_0 _ _
    | ⟨1, _⟩ => exact (lhs_gram_1 _ _).trans hk)
  have er : dot_S500x2432_S500x2432_S500x500_1_1_0_0_n_n.rhsIdx (ix2 i j) ((ValueIdx.contrEquiv1 dot_S500x2432_S500x2432_S500x500_1_1_0_0_n_n 2432 rfl rfl).symm k) = ix2 j k := funext fun a => Fin.ext (by
    match a with
    | ⟨0, _⟩ => exact rhs_gram_0 _ _
    | ⟨1, _⟩ => exact (rhs_gram_1 _ _).trans hk)
  rw [el, er]

/-! ## The lane sum and the threshold bit -/

/-- A sum over axis 1 of a [500, 2432] block into the zero pattern, at n, is the sum of row n. -/
theorem rowSum_apply (v : FVec Ideal S500x2432 .f32) (h : S500x2432.Reduces [1] S500) (hφ : FKind.Formats .f32)
    (hacc : (0x00000000#32 : BitVec 32) = 0x00000000#32) (n : Fin 500) :
    multiReduction (F := Ideal) .add [1] S500 v 0x00000000#32 h hφ hacc (ix1 n) = ∑ k : Fin 2432, v (ix2 n k) := by
  refine (Ideal.multiReduction_add_single v 0x00000000#32 h hφ hacc (ix1 n)).trans ?_
  refine Finset.sum_congr rfl fun k _ => congrArg v ?_
  funext a
  match a with
  | ⟨0, _⟩ => exact Fin.ext rfl
  | ⟨1, _⟩ => exact Fin.ext rfl

/-- A one-bit word widened to 32 bits without sign and read as a signed integer is 0 or 1: the bit as a number. -/
theorem sitofp_bit (b : BitVec 1) : FloatOps.sitofp (F := Ideal) .f32 (b.setWidth 32) = Cert.Nms.bit b := by
  rcases BitVec.eq_zero_or_eq_one b with rfl | rfl
  · rw [Cert.Nms.bit_zero]
    show ((((0#1 : BitVec 1).setWidth 32).toInt : ℝ) : EReal) = 0
    have h0 : ((0#1 : BitVec 1).setWidth 32).toInt = 0 := by decide
    rw [h0]; simp
  · rw [Cert.Nms.bit_one]
    show ((((1#1 : BitVec 1).setWidth 32).toInt : ℝ) : EReal) = 1
    have h1 : ((1#1 : BitVec 1).setWidth 32).toInt = 1 := by decide
    rw [h1]; simp

variable (ox oy : Vec Ideal S500x128 .f32) (tx ty : Vec Ideal S128x2432 .f32)

/-- Row `n` of a one-hot matrix times a table block, at column `k`. -/
def pick (o : Vec Ideal S500x128 .f32) (t : Vec Ideal S128x2432 .f32) (n : Fin 500) (k : Fin 2432) : EReal :=
  ∑ g : Fin 128, o (ix2 n g) * t (ix2 g k)

/-- The product into the zero accumulator, at (n, k), is the sum over the 128 shared coordinates. -/
theorem pick_apply (o : FVec Ideal S500x128 .f32) (t : FVec Ideal S128x2432 .f32) (n : Fin 500) (k : Fin 2432) :
    matmul dot_S500x128_S128x2432_S500x2432_1_0_0_1_n_n (some .fp32) o t (constant (F := Ideal) S500x2432 .f32 0x00000000#32) (ix2 n k)
      = pick o t n k := by
  simp only [matmul]
  rw [Ideal.matmul_constant_zero_apply, ← Equiv.sum_comp (ValueIdx.contrEquiv1 dot_S500x128_S128x2432_S500x2432_1_0_0_1_n_n 128 rfl rfl).symm]
  unfold pick
  refine Finset.sum_congr rfl fun g _ => ?_
  have hk := ValueIdx.contrEquiv1_symm_val dot_S500x128_S128x2432_S500x2432_1_0_0_1_n_n 128 rfl rfl g
  have el : dot_S500x128_S128x2432_S500x2432_1_0_0_1_n_n.lhsIdx (ix2 n k) ((ValueIdx.contrEquiv1 dot_S500x128_S128x2432_S500x2432_1_0_0_1_n_n 128 rfl rfl).symm g) = ix2 n g := funext fun a => Fin.ext (by
    match a with
    | ⟨0, _⟩ => exact lhs_pick_0 _ _
    | ⟨1, _⟩ => exact (lhs_pick_1 _ _).trans hk)
  have er : dot_S500x128_S128x2432_S500x2432_1_0_0_1_n_n.rhsIdx (ix2 n k) ((ValueIdx.contrEquiv1 dot_S500x128_S128x2432_S500x2432_1_0_0_1_n_n 128 rfl rfl).symm g) = ix2 g k := funext fun a => Fin.ext (by
    match a with
    | ⟨0, _⟩ => exact (rhs_pick_0 _ _).trans hk
    | ⟨1, _⟩ => exact rhs_pick_1 _ _)
  rw [el, er]

theorem soft_apply (n : Fin 500) (k : Fin 2432) :
    k0_pay6 (F := Ideal) ox oy tx ty (ix2 n k) = pick ox tx n k * pick oy ty n k := by
  unfold Gen.k0_pay6
  simp only [mulf_apply, shapeCast_self, pick_apply]

theorem hard_apply (n : Fin 500) (k : Fin 2432) :
    k0_pay7 (F := Ideal) ox oy tx ty (ix2 n k) = Cert.Nms.hardOf (k0_pay6 (F := Ideal) ox oy tx ty (ix2 n k)) := by
  unfold Gen.k0_pay7
  simp only [sitofp_apply, extui_apply, cmpf_apply, broadcast_apply, sitofp_bit]
  rfl

theorem area_step (prev : Vec Ideal S500 .f32) (n : Fin 500) :
    k0_pay8 (F := Ideal) ox oy tx ty prev (ix1 n)
      = prev (ix1 n) + ∑ k : Fin 2432, k0_pay7 (F := Ideal) ox oy tx ty (ix2 n k) := by
  unfold Gen.k0_pay8
  simp only [addf_apply, shapeCast_self]
  exact congrArg (fun z => prev (ix1 n) + z) (rowSum_apply _ _ _ _ n)

theorem numer_step (prev : Vec Ideal S500 .f32) (n : Fin 500) :
    k0_pay9 (F := Ideal) ox oy tx ty prev (ix1 n)
      = prev (ix1 n) + ∑ k : Fin 2432, k0_pay6 (F := Ideal) ox oy tx ty (ix2 n k) * k0_pay7 (F := Ideal) ox oy tx ty (ix2 n k) := by
  unfold Gen.k0_pay9
  simp only [addf_apply, shapeCast_self]
  exact congrArg (fun z => prev (ix1 n) + z) (rowSum_apply _ _ _ _ n)

theorem matrix_step (prev : Vec Ideal S500x500 .f32) (i j : Fin 500) :
    k0_pay10 (F := Ideal) ox oy tx ty prev (ix2 i j)
      = prev (ix2 i j) + ∑ k : Fin 2432, k0_pay7 (F := Ideal) ox oy tx ty (ix2 i k) * k0_pay7 (F := Ideal) ox oy tx ty (ix2 j k) := by
  unfold Gen.k0_pay10
  simp only [addf_apply, gram_apply, truncf_apply]

theorem zero_matrix (i j : Fin 500) : (k0_pay3 (F := Ideal)) (ix2 i j) = 0 := by
  unfold Gen.k0_pay3
  simp only [shapeCast_self, broadcast_apply]
  exact Ideal.ofBits_zero_f32

theorem zero_area (n : Fin 500) : (k0_pay4 (F := Ideal)) (ix1 n) = 0 := by
  unfold Gen.k0_pay4
  simp only [broadcast_apply]
  exact Ideal.ofBits_zero_f32

theorem zero_numer (n : Fin 500) : (k0_pay5 (F := Ideal)) (ix1 n) = 0 := by
  unfold Gen.k0_pay5
  simp only [broadcast_apply]
  exact Ideal.ofBits_zero_f32

end Cert.KernelIdeal.Block

end
-- ==== Proof.KTail.lean ====
/-
  The kernel's tail — the payload stored into the decay vector at the last step — read at an index over the extended
  reals: from the completed intersection matrix, the area vector and the labels it computes the column decay of the
  specification. The upper-triangle mask is a 0/1 factor (1·x = x and 0·x = 0 for every extended real x), the column
  maximum and minimum are folds from the −∞ and +∞ patterns.
-/
import proofs.«405678_j60876866453719_2_alg».proof.Proof.Gen.KernelIdeal.Skeleton
import proofs.«405678_j60876866453719_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open Idealize.ShloMosaic Idealize.ShloMosaic.ValueIdx

namespace Cert.KernelIdeal.Tail

open Cert.KernelIdeal Cert.KernelIdeal.Gen

/-! ## Words and bits -/

/-- A one-bit word widened to 32 bits and read as a signed integer is the bit as a number. -/
theorem sitofp_bit (b : BitVec 1) :
    (FloatOps.sitofp (F := Ideal) .f32 (b.setWidth 32) : EReal) = Cert.Nms.bit b := by
  rcases BitVec.eq_zero_or_eq_one b with rfl | rfl
  · have h : ((0#1 : BitVec 1).setWidth 32).toInt = 0 := by decide
    show ((((0#1 : BitVec 1).setWidth 32).toInt : ℝ) : EReal) = _
    rw [h, Cert.Nms.bit_zero]; simp
  · have h : ((1#1 : BitVec 1).setWidth 32).toInt = 1 := by decide
    show ((((1#1 : BitVec 1).setWidth 32).toInt : ℝ) : EReal) = _
    rw [h, Cert.Nms.bit_one]; simp

/-- Two coordinates below 500, as 32-bit words, compare signed as the numbers they are. -/
theorem bit_sgt_coord (i k : Fin 500) :
    Cert.Nms.bit (IntOp.cmpi .sgt (BitVec.ofNat 32 k.val) (BitVec.ofNat 32 i.val)) = if i < k then 1 else 0 := by
  have hi : (BitVec.ofNat 32 i.val).toNat = i.val := by
    rw [BitVec.toNat_ofNat]; exact Nat.mod_eq_of_lt (by have := i.isLt; omega)
  have hk : (BitVec.ofNat 32 k.val).toNat = k.val := by
    rw [BitVec.toNat_ofNat]; exact Nat.mod_eq_of_lt (by have := k.isLt; omega)
  have hiff := StableHlo.Predicate.sgt_iff_toNat (a := BitVec.ofNat 32 k.val) (b := BitVec.ofNat 32 i.val)
    (by rw [hk]; have := k.isLt; omega) (by rw [hi]; have := i.isLt; omega)
  rw [hi, hk] at hiff
  unfold Cert.Nms.bit
  by_cases h : i < k
  · rw [if_pos h, if_pos (hiff.mpr h)]
  · rw [if_neg h, if_neg (fun hc => h (hiff.mp hc))]

/-! ## The keepdims column forms of the layout operations -/

section Layout
variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid down the rows of a square: the column form [500] → [500, 1] → [500, 500] reads, at (i, k), entry i. -/
theorem col_apply (x : (⟨1, ![500]⟩ : Shape).Idx → α) (h1 : S500.ShapeCasts S500x1) (h2 : S500x1.Broadcasts S500x500)
    (i k : Fin 500) : broadcastTo S500x500 (shapeCast S500x1 x h1) h2 (ix2 i k) = x (ix1 i) :=
  (broadcastTo_a1_ab_apply _ h2 i k).trans (shapeCast_a_a1_apply x h1 i 0)

/-- A vector laid along the columns of a square: the row form [500] → [1, 500] → [500, 500] reads, at (i, k), entry k. -/
theorem row_apply (x : (⟨1, ![500]⟩ : Shape).Idx → α) (h1 : S500.ShapeCasts S1x500) (h2 : S1x500.Broadcasts S500x500)
    (i k : Fin 500) : broadcastTo S500x500 (shapeCast S1x500 x h1) h2 (ix2 i k) = x (ix1 k) :=
  (broadcastTo_1b_ab_apply _ h2 i k).trans (shapeCast_a_1a_apply x h1 0 k)

end Layout

/-! ## The payload in stages

The payload is a chain of about forty vector operations. It is cut here into six named stages — the triangle mask, the
intersection over union, the label agreement, the overlap, the column maximum and the ratio under the column minimum —
each the payload's own operations on the stage before, so that the payload IS their composition by unfolding. -/

/-- The strict upper triangle as a 0/1 matrix: the column coordinate above the row coordinate. -/
def vMask : FVec Ideal S500x500 .f32 :=
  sitofp .f32 (extui 32 (cmpi .sgt (iota .tc S500x500 32 [1] iota_S500x500_d1_w32) (iota .tc S500x500 32 [0] iota_S500x500_d0_w32)) natLt_1_32)

/-- The intersection matrix over the floored union: areas down the rows plus areas along the columns less the intersection. -/
def vIou (I : FVec Ideal S500x500 .f32) (A : FVec Ideal S500 .f32) : FVec Ideal S500x500 .f32 :=
  divf I (maximumf
    (subf (addf (broadcastTo S500x500 (shapeCast S500x1 (shapeCast S500 A shapeCasts_S500_S500) shapeCasts_S500_S500x1) broadcasts_S500x1_S500x500)
                (broadcastTo S500x500 (shapeCast S1x500 (shapeCast S500 A shapeCasts_S500_S500) shapeCasts_S500_S1x500) broadcasts_S1x500_S500x500)) I)
    (broadcast S500x500 (Scalar.ofBits .f32 0x358637BD#32)))

/-- Where the row's label and the column's label agree, as a 0/1 matrix. -/
def vSame (lab : IVec S500 32) : FVec Ideal S500x500 .f32 :=
  sitofp .f32 (extui 32 (cmpi .eq (broadcastTo S500x500 (shapeCast S500x1 lab shapeCasts_S500_S500x1) broadcasts_S500x1_S500x500)
                                  (broadcastTo S500x500 (shapeCast S1x500 lab shapeCasts_S500_S1x500) broadcasts_S1x500_S500x500)) natLt_1_32)

/-- The same-class overlap matrix: (mask · iou) · (mask · agreement). -/
def vOvl (I : FVec Ideal S500x500 .f32) (A : FVec Ideal S500 .f32) (lab : IVec S500 32) : FVec Ideal S500x500 .f32 :=
  mulf (mulf vMask (vIou I A)) (mulf vMask (vSame lab))

/-- The column maximum of the overlap matrix, from the −∞ pattern. -/
def vComp (I : FVec Ideal S500x500 .f32) (A : FVec Ideal S500 .f32) (lab : IVec S500 32) : FVec Ideal S500 .f32 :=
  multiReduction .maximumf [0] S500 (vOvl I A lab) 0xFF800000#32 reduces_S500x500_S500 (.inl rfl) rfl

/-- The Gaussian of each overlap over the Gaussian of its row's column maximum. -/
def vRatio (I : FVec Ideal S500x500 .f32) (A : FVec Ideal S500 .f32) (lab : IVec S500 32) : FVec Ideal S500x500 .f32 :=
  divf (exp (mulf (broadcast S500x500 (Scalar.ofBits .f32 0xC0000000#32)) (mulf (vOvl I A lab) (vOvl I A lab))))
    (broadcastTo S500x500
      (shapeCast S500x1 (exp (mulf (broadcast S500 (Scalar.ofBits .f32 0xC0000000#32)) (mulf (vComp I A lab) (vComp I A lab))))
        shapeCasts_S500_S500x1) broadcasts_S500x1_S500x500)

/-- The payload is the column minimum, from the +∞ pattern, of the ratio matrix. -/
theorem pay2_eq (I : FVec Ideal S500x500 .f32) (A : FVec Ideal S500 .f32) (lab : IVec S500 32) :
    k0_pay2 (F := Ideal) I A lab
      = multiReduction .minimumf [0] S500 (vRatio I A lab) 0x7F800000#32 reduces_S500x500_S500 (.inl rfl) rfl := rfl

/-! ## Each stage read at coordinates -/

/-- An exponential at an index is the exponential of the element, at every instance. -/
theorem exp_apply {F : FTy → Type} [FloatOps F] {s : Shape} {φ : FTy} (a : FVec F s φ) (i : s.Idx) :
    exp a i = FloatOps.exp (a i) := rfl

variable (I : FVec Ideal S500x500 .f32) (A : FVec Ideal S500 .f32) (lab : IVec S500 32)

/-- The mask at (i, k) is 1 above the diagonal and 0 on and below it. -/
theorem vMask_apply (i k : Fin 500) : vMask (ix2 i k) = if i < k then 1 else 0 := by
  have e1 : iota .tc S500x500 32 [1] iota_S500x500_d1_w32 (ix2 i k) = BitVec.ofNat 32 k.val :=
    iota_single_apply _ _ _ _ _ _
  have e0 : iota .tc S500x500 32 [0] iota_S500x500_d0_w32 (ix2 i k) = BitVec.ofNat 32 i.val :=
    iota_single_apply _ _ _ _ _ _
  show FloatOps.sitofp (F := Ideal) .f32
      ((IntOp.cmpi .sgt (iota .tc S500x500 32 [1] iota_S500x500_d1_w32 (ix2 i k))
        (iota .tc S500x500 32 [0] iota_S500x500_d0_w32 (ix2 i k))).setWidth 32) = _
  rw [e1, e0, sitofp_bit]
  exact bit_sgt_coord i k

/-- The intersection-over-union stage at (i, k) is the specification's. -/
theorem vIou_apply (i k : Fin 500) :
    vIou I A (ix2 i k) = Cert.Nms.iou (fun i k => I (ix2 i k)) (fun i => A (ix1 i)) i k := by
  show Ideal.div (I (ix2 i k))
      (max ((broadcastTo S500x500 (shapeCast S500x1 (shapeCast S500 A shapeCasts_S500_S500) shapeCasts_S500_S500x1)
                broadcasts_S500x1_S500x500 (ix2 i k))
            + (broadcastTo S500x500 (shapeCast S1x500 (shapeCast S500 A shapeCasts_S500_S500) shapeCasts_S500_S1x500)
                broadcasts_S1x500_S500x500 (ix2 i k))
            - I (ix2 i k))
        (Ideal.ofBits .f32 0x358637BD#32)) = _
  rw [col_apply, row_apply, shapeCast_self]
  rfl

/-- The label-agreement stage at (i, k) is the bit of the labels' equality. -/
theorem vSame_apply (i k : Fin 500) :
    vSame lab (ix2 i k) = Cert.Nms.bit (IntOp.cmpi .eq (lab (ix1 i)) (lab (ix1 k))) := by
  show FloatOps.sitofp (F := Ideal) .f32
      ((IntOp.cmpi .eq
        (broadcastTo S500x500 (shapeCast S500x1 lab shapeCasts_S500_S500x1) broadcasts_S500x1_S500x500 (ix2 i k))
        (broadcastTo S500x500 (shapeCast S1x500 lab shapeCasts_S500_S1x500) broadcasts_S1x500_S500x500 (ix2 i k))).setWidth 32) = _
  rw [col_apply, row_apply, sitofp_bit]

/-- The overlap stage at (i, k): with the mask 1 both factors pass (1·x = x), with the mask 0 both vanish (0·x = 0). -/
theorem vOvl_apply (i k : Fin 500) :
    vOvl I A lab (ix2 i k)
      = Cert.Nms.overlap (fun i k => I (ix2 i k)) (fun i => A (ix1 i)) (fun i => lab (ix1 i)) i k := by
  show (vMask (ix2 i k) * vIou I A (ix2 i k)) * (vMask (ix2 i k) * vSame lab (ix2 i k)) = _
  rw [vMask_apply, vIou_apply, vSame_apply]
  unfold Cert.Nms.overlap
  by_cases h : i < k
  · simp only [if_pos h, one_mul]
  · simp only [if_neg h, zero_mul]

/-- Over column j, the source index with row coordinate i is (i, j). -/
theorem lift_col (h : S500x500.Reduces [0] S500) (j i : Fin 500) : h.lift (ix1 j) i = ix2 i j := by
  funext c
  match c with
  | ⟨0, _⟩ => exact Fin.ext rfl
  | ⟨1, _⟩ => exact Fin.ext rfl

/-- The column-maximum stage at k is the specification's compensation of column k. -/
theorem vComp_apply (k : Fin 500) :
    vComp I A lab (ix1 k)
      = Cert.Nms.comp (fun i k => I (ix2 i k)) (fun i => A (ix1 i)) (fun i => lab (ix1 i)) k := by
  unfold vComp
  refine (Ideal.multiReduction_maximumf_single (vOvl I A lab) 0xFF800000#32 reduces_S500x500_S500 (.inl rfl) rfl (ix1 k)).trans ?_
  unfold Cert.Nms.comp
  refine Finset.fold_congr (fun i _ => ?_)
  exact (congrArg (vOvl I A lab) (lift_col reduces_S500x500_S500 k i)).trans (vOvl_apply I A lab i k)

/-- The ratio stage at (i, k): the Gaussian of the overlap over the Gaussian of row i's compensation. -/
theorem vRatio_apply (i k : Fin 500) :
    vRatio I A lab (ix2 i k)
      = Ideal.div
          (Ideal.exp (Cert.Nms.negTwo *
            (Cert.Nms.overlap (fun i k => I (ix2 i k)) (fun i => A (ix1 i)) (fun i => lab (ix1 i)) i k
              * Cert.Nms.overlap (fun i k => I (ix2 i k)) (fun i => A (ix1 i)) (fun i => lab (ix1 i)) i k)))
          (Ideal.exp (Cert.Nms.negTwo *
            (Cert.Nms.comp (fun i k => I (ix2 i k)) (fun i => A (ix1 i)) (fun i => lab (ix1 i)) i
              * Cert.Nms.comp (fun i k => I (ix2 i k)) (fun i => A (ix1 i)) (fun i => lab (ix1 i)) i))) := by
  unfold vRatio
  simp only [divf_apply, exp_apply, mulf_apply, broadcast_apply, col_apply, Ideal.exp_def, vOvl_apply, vComp_apply]
  rfl

/-! ## The column minimum -/

/-- A minimum reduction over one axis, read over the extended reals: the fold of min from the accumulator's value over
    that axis's coordinates — the twin of the library's law for a maximum, by the same two steps. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The tail's payload at column `j` is the specification's decay of the matrix, the areas and the labels. -/
theorem decay_apply (I : Vec Ideal S500x500 .f32) (A : Vec Ideal S500 .f32) (lab : Vec Ideal S500 .i32) (j : Fin 500) :
    k0_pay2 (F := Ideal) I A lab (ix1 j)
      = Cert.Nms.decay (fun i k => I (ix2 i k)) (fun i => A (ix1 i)) (fun i => lab (ix1 i)) j := by
  refine (congrFun (pay2_eq I A lab) (ix1 j)).trans ?_
  refine (multiReduction_minimumf_single (vRatio I A lab) 0x7F800000#32 reduces_S500x500_S500 (.inl rfl) rfl (ix1 j)).trans ?_
  unfold Cert.Nms.decay
  refine Finset.fold_congr (fun i _ => ?_)
  exact (congrArg (vRatio I A lab) (lift_col reduces_S500x500_S500 j i)).trans (vRatio_apply I A lab i j)

end Cert.KernelIdeal.Tail

end
-- ==== Proof.TileSums.lean ====
/-
  Sums over 60800 = 25 · 2432 pixels taken tile by tile. For a function f of the pixel, part f n is the sum of f over
  the first (n + 1)·2432 pixels. Then part f 0 is the sum over the first tile, part f (n + 1) is part f n plus the sum
  over tile n + 1, and part f 24 is the whole sum. Only commutativity and associativity of + are used, so all of it
  holds in the extended reals.
-/
import Mathlib.Algebra.BigOperators.Fin
import Mathlib.Algebra.BigOperators.Intervals
import Mathlib.Data.Fintype.BigOperators

open scoped BigOperators

namespace Cert.Hand

variable {M : Type*} [AddCommMonoid M]

/-- A function of the pixel extended by zero to every natural number. -/
def ext (f : Fin 60800 → M) (q : ℕ) : M := if h : q < 60800 then f ⟨q, h⟩ else 0

theorem ext_of_lt (f : Fin 60800 → M) (q : ℕ) (h : q < 60800) : ext f q = f ⟨q, h⟩ := dif_pos h

/-- The sum of `f` over the first (n + 1)·2432 pixels. -/
def part (f : Fin 60800 → M) (n : ℕ) : M := ∑ q ∈ Finset.range ((n + 1) * 2432), ext f q

/-- A sum of the extension over a tile is the sum of the function over the tile's pixels. -/
theorem sum_tile (f : Fin 60800 → M) (s : ℕ) (hs : s < 25) :
    ∑ q ∈ Finset.range 2432, ext f (s * 2432 + q) = ∑ k : Fin 2432, f ⟨s * 2432 + k.val, by have := k.isLt; omega⟩ := by
  rw [Finset.sum_range]
  refine Finset.sum_congr rfl fun k _ => ?_
  exact ext_of_lt f _ (by have := k.isLt; omega)

theorem part_zero (f : Fin 60800 → M) :
    part f 0 = ∑ k : Fin 2432, f ⟨0 * 2432 + k.val, by have := k.isLt; omega⟩ := by
  unfold part
  rw [← sum_tile f 0 (by decide)]
  simp

theorem part_succ (f : Fin 60800 → M) (n : ℕ) (hn : n + 1 < 25) :
    part f (n + 1) = part f n + ∑ k : Fin 2432, f ⟨(n + 1) * 2432 + k.val, by have := k.isLt; omega⟩ := by
  unfold part
  rw [show (n + 1 + 1) * 2432 = (n + 1) * 2432 + 2432 by omega, Finset.sum_range_add, sum_tile f (n + 1) hn]

theorem part_last (f : Fin 60800 → M) : part f 24 = ∑ p : Fin 60800, f p := by
  unfold part
  rw [show (24 + 1) * 2432 = 60800 from rfl, Finset.sum_range]
  refine Finset.sum_congr rfl fun p _ => ?_
  exact ext_of_lt f _ p.isLt

end Cert.Hand
-- ==== Proof.KValues.lean ====
/-
  The kernel's result is the specification's, over the extended reals, when every index word is below 128.

  * A one-hot row times a table block picks the indexed row: in Σ_g [idx n = g]·t(g, k) every term but g = idx n is
    0·t(g, k) = 0 and the remaining one is 1·t(idx n, k). (No finiteness is used: 0·x = 0 for every extended real.)
  * Hence at grid step t the soft and hard blocks are the specification's soft and hard masks on the tile of pixels
    2432·t … 2432·t + 2431: the block column k of a flattened table is its column 2432·t + k, and column p of the
    flattened table is position (p / 304, p % 304) of the picture.
  * By induction on the step, after step n the three accumulators hold the specification's sums restricted to the
    first (n + 1)·2432 pixels; after step 24 these are the whole sums: the areas, the numerators, the intersections.
  * The decay vector is the tail of those, and the host's last operations form the result.
-/
import proofs.«405678_j60876866453719_2_alg».proof.Proof.KRun
import proofs.«405678_j60876866453719_2_alg».proof.Proof.KHost
import proofs.«405678_j60876866453719_2_alg».proof.Proof.KBlock
import proofs.«405678_j60876866453719_2_alg».proof.Proof.KTail
import proofs.«405678_j60876866453719_2_alg».proof.Proof.TileSums
import Idealize.ShloMosaic.Lib.StableHlo.Predicate

set_option maxRecDepth 16384

noncomputable section

open Idealize.ShloMosaic Idealize.ShloMosaic.TcCoe Idealize.SL.Sem Idealize.ShloMosaic.ValueIdx

namespace Cert.KernelIdeal.Values

open Cert.KernelIdeal Cert.KernelIdeal.Gen Cert.KernelIdeal.Accum Cert.KernelIdeal.Host Cert.KernelIdeal.Block Cert.Hand

/-- A one-hot row times a table block picks the indexed row of the block. -/
theorem pick_oneHot (idx : IVec S500 32) (t : Vec Ideal S128x2432 .f32) (n : Fin 500) (hn : (idx (ix1 n)).toNat < 128)
    (k : Fin 2432) :
    pick (oneHot (F := Ideal) idx) t n k = t (ix2 (⟨(idx (ix1 n)).toNat, hn⟩ : Fin 128) k) := by
  unfold pick
  rw [Finset.sum_eq_single (⟨(idx (ix1 n)).toNat, hn⟩ : Fin 128)]
  · rw [oneHot_apply]
    have h1 : IntOp.cmpi .eq (idx (ix1 n)) (BitVec.ofNat 32 (idx (ix1 n)).toNat) = 1#1 := by
      rw [StableHlo.Predicate.cmpi_eq_iff]
      exact BitVec.eq_of_toNat_eq (by rw [BitVec.toNat_ofNat]; exact (Nat.mod_eq_of_lt (idx (ix1 n)).isLt).symm)
    rw [h1, Cert.Nms.bit_one, one_mul]
  · intro g _ hg
    rw [oneHot_apply]
    have h0 : IntOp.cmpi .eq (idx (ix1 n)) (BitVec.ofNat 32 g.val) = 0#1 := by
      apply eq_zero_of_ne_one
      intro h
      rw [StableHlo.Predicate.cmpi_eq_iff] at h
      apply hg
      apply Fin.ext
      have hg' := g.isLt
      show g.val = (idx (ix1 n)).toNat
      rw [h, BitVec.toNat_ofNat]
      omega
    rw [h0, Cert.Nms.bit_zero, zero_mul]
  · intro h
    exact absurd (Finset.mem_univ _) h

variable (m : (ℓ : Loc nD τ sig) → Buf (Elt Ideal) ℓ)

/-- The rows of the first table the first index vector chooses, flattened. -/
abbrev X (c : Dev nD) : Fin 500 → Fin 60800 → EReal :=
  Cert.Nms.rows (m ((c.tc : Thread nD τ).loc main_arg1)) (m ((c.tc : Thread nD τ).loc main_arg4))
/-- The rows of the second table the second index vector chooses, flattened. -/
abbrev Y (c : Dev nD) : Fin 500 → Fin 60800 → EReal :=
  Cert.Nms.rows (m ((c.tc : Thread nD τ).loc main_arg2)) (m ((c.tc : Thread nD τ).loc main_arg5))

/-- Pixel `k` of tile `t`. -/
abbrev pixOf (t : Fin cfg0.N) (k : Fin 2432) : Fin 60800 :=
  ⟨t.val * 2432 + k.val, by have := t.isLt; have h : cfg0.N = 25 := N_0; have := k.isLt; omega⟩

variable (hx : ∀ (c : Dev nD) (n : Fin 500), (m ((c.tc : Thread nD τ).loc main_arg4) (ix1 n)).toNat < 128)
variable (hy : ∀ (c : Dev nD) (n : Fin 500), (m ((c.tc : Thread nD τ).loc main_arg5) (ix1 n)).toNat < 128)

include hx in
theorem pick_x (c : Dev nD) (t : Fin cfg0.N) (n : Fin 500) (k : Fin 2432) :
    pick (ohx m c t) (tbx m c t) n k = X m c n (pixOf t k) := by
  have e : ohx m c t = oneHot (F := Ideal) (m ((c.tc : Thread nD τ).loc main_arg4)) := (ohx_eq m c t).trans (V_onehot_x m c)
  rw [e, pick_oneHot _ _ n (hx c n) k, tbx_apply, V_flat_x, flat_apply]
  unfold X Cert.Nms.rows
  have e128 : (⟨(m ((c.tc : Thread nD τ).loc main_arg4) (ix1 n)).toNat % 128, Nat.mod_lt _ (by decide)⟩ : Fin 128)
      = ⟨(m ((c.tc : Thread nD τ).loc main_arg4) (ix1 n)).toNat, hx c n⟩ := Fin.ext (Nat.mod_eq_of_lt (hx c n))
  rw [e128]

include hy in
theorem pick_y (c : Dev nD) (t : Fin cfg0.N) (n : Fin 500) (k : Fin 2432) :
    pick (ohy m c t) (tby m c t) n k = Y m c n (pixOf t k) := by
  have e : ohy m c t = oneHot (F := Ideal) (m ((c.tc : Thread nD τ).loc main_arg5)) := (ohy_eq m c t).trans (V_onehot_y m c)
  rw [e, pick_oneHot _ _ n (hy c n) k, tby_apply, V_flat_y, flat_apply]
  unfold Y Cert.Nms.rows
  have e128 : (⟨(m ((c.tc : Thread nD τ).loc main_arg5) (ix1 n)).toNat % 128, Nat.mod_lt _ (by decide)⟩ : Fin 128)
      = ⟨(m ((c.tc : Thread nD τ).loc main_arg5) (ix1 n)).toNat, hy c n⟩ := Fin.ext (Nat.mod_eq_of_lt (hy c n))
  rw [e128]

include hx hy in
/-- Step `t`'s soft block is the soft mask on tile `t`. -/
theorem soft_blk (c : Dev nD) (t : Fin cfg0.N) (n : Fin 500) (k : Fin 2432) :
    k0_pay6 (F := Ideal) (ohx m c t) (ohy m c t) (tbx m c t) (tby m c t) (ix2 n k)
      = Cert.Nms.soft (X m c) (Y m c) n (pixOf t k) := by
  rw [Block.soft_apply, pick_x m hx c t n k, pick_y m hy c t n k]
  rfl

include hx hy in
/-- Step `t`'s hard block is the hard mask on tile `t`. -/
theorem hard_blk (c : Dev nD) (t : Fin cfg0.N) (n : Fin 500) (k : Fin 2432) :
    k0_pay7 (F := Ideal) (ohx m c t) (ohy m c t) (tbx m c t) (tby m c t) (ix2 n k)
      = Cert.Nms.hard (X m c) (Y m c) n (pixOf t k) := by
  rw [Block.hard_apply, soft_blk m hx hy c t n k]
  rfl

include hx hy in
/-- After step `n` the accumulators hold the three sums over the first (n + 1)·2432 pixels. -/
theorem acc_inv (c : Dev nD) : ∀ (n : ℕ) (h : n < cfg0.N),
    (∀ r : Fin 500, (accAt m c n h).1 (ix1 r) = part (Cert.Nms.hard (X m c) (Y m c) r) n)
    ∧ (∀ r : Fin 500, (accAt m c n h).2.1 (ix1 r)
        = part (fun p => Cert.Nms.soft (X m c) (Y m c) r p * Cert.Nms.hard (X m c) (Y m c) r p) n)
    ∧ (∀ i j : Fin 500, (accAt m c n h).2.2 (ix2 i j)
        = part (fun p => Cert.Nms.hard (X m c) (Y m c) i p * Cert.Nms.hard (X m c) (Y m c) j p) n)
  | 0, h => by
    refine ⟨fun r => ?_, fun r => ?_, fun i j => ?_⟩
    · show k0_pay8 (F := Ideal) (ohx m c ⟨0, h⟩) (ohy m c ⟨0, h⟩) (tbx m c ⟨0, h⟩) (tby m c ⟨0, h⟩) (k0_pay4 (F := Ideal)) (ix1 r) = _
      rw [Block.area_step, Block.zero_area, zero_add, part_zero]
      exact Finset.sum_congr rfl fun k _ => hard_blk m hx hy c ⟨0, h⟩ r k
    · show k0_pay9 (F := Ideal) (ohx m c ⟨0, h⟩) (ohy m c ⟨0, h⟩) (tbx m c ⟨0, h⟩) (tby m c ⟨0, h⟩) (k0_pay5 (F := Ideal)) (ix1 r) = _
      rw [Block.numer_step, Block.zero_numer, zero_add, part_zero]
      exact Finset.sum_congr rfl fun k _ => by rw [soft_blk m hx hy c ⟨0, h⟩ r k, hard_blk m hx hy c ⟨0, h⟩ r k]
    · show k0_pay10 (F := Ideal) (ohx m c ⟨0, h⟩) (ohy m c ⟨0, h⟩) (tbx m c ⟨0, h⟩) (tby m c ⟨0, h⟩) (k0_pay3 (F := Ideal)) (ix2 i j) = _
      rw [Block.matrix_step, Block.zero_matrix, zero_add, part_zero]
      exact Finset.sum_congr rfl fun k _ => by rw [hard_blk m hx hy c ⟨0, h⟩ i k, hard_blk m hx hy c ⟨0, h⟩ j k]
  | n + 1, h => by
    obtain ⟨ih1, ih2, ih3⟩ := acc_inv c n (Nat.lt_of_succ_lt h)
    have hn : n + 1 < 25 := by have hN : cfg0.N = 25 := N_0; omega
    refine ⟨fun r => ?_, fun r => ?_, fun i j => ?_⟩
    · show k0_pay8 (F := Ideal) (ohx m c ⟨n + 1, h⟩) (ohy m c ⟨n + 1, h⟩) (tbx m c ⟨n + 1, h⟩) (tby m c ⟨n + 1, h⟩) (accAt m c n (Nat.lt_of_succ_lt h)).1 (ix1 r) = _
      rw [Block.area_step, ih1 r, part_succ _ n hn]
      exact congrArg _ (Finset.sum_congr rfl fun k _ => hard_blk m hx hy c ⟨n + 1, h⟩ r k)
    · show k0_pay9 (F := Ideal) (ohx m c ⟨n + 1, h⟩) (ohy m c ⟨n + 1, h⟩) (tbx m c ⟨n + 1, h⟩) (tby m c ⟨n + 1, h⟩) (accAt m c n (Nat.lt_of_succ_lt h)).2.1 (ix1 r) = _
      rw [Block.numer_step, ih2 r, part_succ _ n hn]
      exact congrArg _ (Finset.sum_congr rfl fun k _ => by rw [soft_blk m hx hy c ⟨n + 1, h⟩ r k, hard_blk m hx hy c ⟨n + 1, h⟩ r k])
    · show k0_pay10 (F := Ideal) (ohx m c ⟨n + 1, h⟩) (ohy m c ⟨n + 1, h⟩) (tbx m c ⟨n + 1, h⟩) (tby m c ⟨n + 1, h⟩) (accAt m c n (Nat.lt_of_succ_lt h)).2.2 (ix2 i j) = _
      rw [Block.matrix_step, ih3 i j, part_succ _ n hn]
      exact congrArg _ (Finset.sum_congr rfl fun k _ => by rw [hard_blk m hx hy c ⟨n + 1, h⟩ i k, hard_blk m hx hy c ⟨n + 1, h⟩ j k])

include hx hy in
/-- The kernel's result is the specification's. -/
theorem kres_eq (c : Dev nD) :
    Cert.KernelIdeal.Run.kres m c
      = Cert.Nms.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext j
  obtain ⟨n, rfl⟩ : ∃ n : Fin 500, j = ix1 n := ⟨j 0, eq_ix1 j⟩
  rw [Cert.Nms.result_apply]
  obtain ⟨h1, h2, h3⟩ := acc_inv m hx hy c 24 h24
  have ea : ∀ r : Fin 500, (accAt m c 24 h24).1 (ix1 r) = Cert.Nms.area (X m c) (Y m c) r := fun r => (h1 r).trans (part_last _)
  have en : ∀ r : Fin 500, (accAt m c 24 h24).2.1 (ix1 r) = Cert.Nms.numer (X m c) (Y m c) r := fun r => (h2 r).trans (part_last _)
  have ei : ∀ i k : Fin 500, (accAt m c 24 h24).2.2 (ix2 i k) = Cert.Nms.inter (X m c) (Y m c) i k := fun i k => (h3 i k).trans (part_last _)
  unfold Cert.KernelIdeal.Run.kres Cert.KernelIdeal.Run.hostTail Cert.Nms.score
  simp only [mulf, Host.divf, maximumf, broadcastInDim, constant, Ideal.mulf_def, Ideal.hostDivf_def, Ideal.maximumf_def,
    Ideal.ofBits_def]
  rw [Cert.KernelIdeal.Tail.decay_apply, labs_eq, ea, en,
    show (fun i k => (accAt m c 24 h24).2.2 (ix2 i k)) = Cert.Nms.inter (X m c) (Y m c) from funext fun i => funext fun k => ei i k,
    show (fun i => (accAt m c 24 h24).1 (ix1 i)) = Cert.Nms.area (X m c) (Y m c) from funext ea]
  rfl

end Cert.KernelIdeal.Values

end
-- ==== Proof.RefStages.lean ====
/-
  The reference program read one host operation at a time: this module gathers the reference's run and its
  read-at-an-index lemmas, on which the reference side of the value argument is built.
-/
import proofs.«405678_j60876866453719_2_alg».proof.Proof.Gen.ReferenceIdeal.Run
import proofs.«405678_j60876866453719_2_alg».proof.Proof.Gen.ReferenceIdeal.Read
-- ==== Proof.LibSumBlocks.lean ====
import Mathlib.Algebra.BigOperators.Fin
import Mathlib.Algebra.BigOperators.Group.Finset.Defs
import Mathlib.Algebra.BigOperators.Group.List.Basic
import Mathlib.Data.Fintype.BigOperators
import Idealize.ShloMosaic.Lib.ValueIdx

/-!
# Finite sums taken block by block

Pure bookkeeping about finite sums in an additive commutative monoid `M` (only commutativity and associativity of `+`
are used, so every statement holds in the extended reals as well).

* `sum_idx3`, `sum_idx4`: a sum over the index set of a rank-3 (rank-4) shape is the iterated sum over its coordinates,
  because the index set is in bijection with the product of the coordinate ranges (`idxEquiv3`, `idxEquiv4`).
* `sum_rows_blocks`: the 1024 numbers `0 ≤ row < 1024` are written uniquely as `512·c + 32·s + 8·k + r` with
  `c < 2`, `s < 16`, `k < 4`, `r < 8` (mixed-radix digits), so a sum over the rows is the fourfold sum over the digits.
* `sum_rows_pairs`: likewise `row = 16·b + ch` with `b = row / 16 < 64` and `ch = row % 16 < 16`.
* `foldl_add_eq_sum`: a left fold over `0, 1, …, n-1` that adds `g k` at step `k` ends at the start value plus `∑ k, g k`.
-/

open scoped BigOperators
open Idealize.ShloMosaic Idealize.ShloMosaic.ValueIdx

namespace Cert.Hand

/-! ## Sums over the index set of a shape -/

/-- A rank-3 index set is the product of its three coordinate ranges: an index goes to its coordinates,
    a triple of coordinates to the index `ix3` built from them. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates:
    `∑ i, f i = ∑ a, ∑ b, ∑ c, f (a, b, c)`. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges: an index goes to its coordinates,
    a quadruple of coordinates to the index `ix4` built from them. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates:
    `∑ i, f i = ∑ a, ∑ b, ∑ c, ∑ d, f (a, b, c, d)`. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## 1024 rows in blocks -/

/-- Mixed-radix digits: `(c, s, k, r)` with `c < 2`, `s < 16`, `k < 4`, `r < 8` corresponds to the row
    `512·c + 32·s + 8·k + r < 1024`; the digits of a row are `row / 512`, `row % 512 / 32`, `row % 32 / 8`, `row % 8`. -/
def rowsBlocksEquiv : Fin 2 × Fin 16 × Fin 4 × Fin 8 ≃ Fin 1024 where
  toFun p := ⟨512 * p.1.val + 32 * p.2.1.val + 8 * p.2.2.1.val + p.2.2.2.val, by
    have := p.1.isLt; have := p.2.1.isLt; have := p.2.2.1.isLt; have := p.2.2.2.isLt; omega⟩
  invFun row := (⟨row.val / 512, by have := row.isLt; omega⟩, ⟨row.val % 512 / 32, by omega⟩,
    ⟨row.val % 32 / 8, by omega⟩, ⟨row.val % 8, by omega⟩)
  left_inv p := by
    obtain ⟨⟨c, hc⟩, ⟨s, hs⟩, ⟨k, hk⟩, ⟨r, hr⟩⟩ := p
    refine Prod.ext (Fin.ext ?_) (Prod.ext (Fin.ext ?_) (Prod.ext (Fin.ext ?_) (Fin.ext ?_))) <;>
      simp only <;> omega
  right_inv row := by
    obtain ⟨v, hv⟩ := row
    refine Fin.ext ?_
    simp only
    omega

/-- 1024 rows, taken as 2 halves of 16 blocks of 4 chunks of 8 rows: row = 512·c + 32·s + 8·k + r. -/
theorem sum_rows_blocks {M : Type*} [AddCommMonoid M] (f : Fin 1024 → M) :
    ∑ c : Fin 2, ∑ s : Fin 16, ∑ k : Fin 4, ∑ r : Fin 8,
      f ⟨512 * c.val + 32 * s.val + 8 * k.val + r.val, by omega⟩ = ∑ row : Fin 1024, f row := by
  rw [← Equiv.sum_comp rowsBlocksEquiv f, Fintype.sum_prod_type]
  refine Finset.sum_congr rfl fun c _ => ?_
  rw [Fintype.sum_prod_type]
  refine Finset.sum_congr rfl fun s _ => ?_
  rw [Fintype.sum_prod_type]
  rfl

/-- Quotient and remainder by 16: `(b, ch)` with `b < 64`, `ch < 16` corresponds to the row `16·b + ch < 1024`;
    conversely `b = row / 16` and `ch = row % 16`. -/
def rowsPairsEquiv : Fin 64 × Fin 16 ≃ Fin 1024 where
  toFun p := ⟨16 * p.1.val + p.2.val, by have := p.1.isLt; have := p.2.isLt; omega⟩
  invFun row := (⟨row.val / 16, by have := row.isLt; omega⟩, ⟨row.val % 16, by omega⟩)
  left_inv p := by
    obtain ⟨⟨b, hb⟩, ⟨ch, hch⟩⟩ := p
    refine Prod.ext (Fin.ext ?_) (Fin.ext ?_) <;> simp only <;> omega
  right_inv row := by
    obtain ⟨v, hv⟩ := row
    refine Fin.ext ?_
    simp only
    omega

/-- 1024 rows as 64 × 16 pairs in row-major order: row = 16·b + ch. -/
theorem sum_rows_pairs {M : Type*} [AddCommMonoid M] (g : Fin 64 → Fin 16 → M) :
    ∑ row : Fin 1024, g ⟨row.val / 16, by omega⟩ ⟨row.val % 16, by omega⟩ = ∑ b : Fin 64, ∑ ch : Fin 16, g b ch := by
  exact (Equiv.sum_comp rowsPairsEquiv.symm (fun p : Fin 64 × Fin 16 => g p.1 p.2)).trans
    (Fintype.sum_prod_type _)

/-! ## A left fold that accumulates a sum -/

/-- Over any list: folding `acc ↦ acc + g k` from `a` gives `a` plus the sum of the `g k` along the list. -/
theorem foldl_add_eq_add_sum_map {M : Type*} [AddCommMonoid M] {α : Type*} (g : α → M) (l : List α) (a : M) :
    l.foldl (fun acc k => acc + g k) a = a + (l.map g).sum := by
  induction l generalizing a with
  | nil => simp
  | cons x xs ih => rw [List.foldl_cons, ih, List.map_cons, List.sum_cons, add_assoc]

/-- A left fold that adds `g k` at step `k` is the start plus the sum. -/
theorem foldl_add_eq_sum {M : Type*} [AddCommMonoid M] (n : Nat) (g : Fin n → M) (a : M) :
    (List.finRange n).foldl (fun acc k => acc + g k) a = a + ∑ k : Fin n, g k := by
  rw [foldl_add_eq_add_sum_map, Fin.sum_univ_def]

end Cert.Hand
-- ==== Proof.RMasks.lean ====
/-
  The reference's masks and their three sums, read at an index over the extended reals. The reference takes row
  idx(n) of each table (a negative index would be wrapped and an out-of-range one clamped; on the words below 128 the
  precondition admits, the row taken is the word itself), multiplies the two rows, thresholds, and sums over the
  200 × 304 pixels; the intersection is the product of the flattened hard masks with their transpose. Pixel (h, w) of
  the picture is pixel p = 304·h + w of the flattened row.
-/
import proofs.«405678_j60876866453719_2_alg».proof.Proof.RefStages
import proofs.«405678_j60876866453719_2_alg».proof.Proof.Spec
import proofs.«405678_j60876866453719_2_alg».proof.Proof.LibSumBlocks
import Idealize.ShloMosaic.Lib.StableHlo.Predicate

noncomputable section

open Idealize.ShloMosaic Idealize.ShloMosaic.ValueIdx

namespace Cert.ReferenceIdeal.Masks

open Cert.ReferenceIdeal Cert.ReferenceIdeal.Gen Cert.ReferenceIdeal.Read

/-! ## The gather: row idx(n) of a table -/

/-- The start-index table's entry for candidate n. -/
abbrev ixC (n : Fin 500) : S500x1.Idx := ix2 n (0 : Fin 1)

section Gather
variable (idx : IVec S500x1 32) (n : Fin 500) (h : Fin 200) (w : Fin 304)

local notation "gd" => gather_S128x200x304_S500x1_S500x200x304_12_0_n_n_0_1_1200304

/-- Axis 0 of the operand index: the start index of candidate n, read signed and clamped into [0, 127]; a word below
    128 is its own clamp. The axis is collapsed, so there is no offset on it. -/
theorem opIdx_0 (hlt : (idx (ixC n)).toNat < 128) :
    (GatherDims.operandIdx gd (ix3 n h w) idx (0 : Fin 3)).val = (idx (ixC n)).toNat := by
  show GatherDims.start _ _ _ _ + GatherDims.batchCoord _ _ _ + GatherDims.offCoord _ _ _ = _
  rw [GatherDims.batchCoord_eq_zero _ _ _ List.not_mem_nil,
    GatherDims.offCoord_eq_zero _ _ _ (fun hk => ((GatherDims.mem_sKept _ _).mp hk).1 (List.mem_singleton.mpr rfl))]
  simp only [Nat.add_zero]
  unfold GatherDims.start
  rw [dif_pos (show (0 : Fin 3) ∈ (GatherDims.startIndexMap gd) from List.mem_singleton.mpr rfl)]
  have hsi : GatherDims.siIdx gd (ix3 n h w)
      ⟨List.idxOf (0 : Fin 3) (GatherDims.startIndexMap gd), List.idxOf_lt_length_iff.2 (List.mem_singleton.mpr rfl)⟩
        = ixC n := by
    funext b; refine Fin.ext ?_
    match b with
    | ⟨0, _⟩ => rfl
    | ⟨1, _⟩ => rfl
  rw [hsi]
  show min (idx (ixC n)).toInt.toNat (128 - 1) = (idx (ixC n)).toNat
  rw [Idealize.ShloMosaic.StableHlo.Predicate.toInt_eq_toNat_of_lt (by omega), Int.toNat_natCast]
  omega

/-- Axis 1 of the operand index: the axis is not start-indexed, so the slice starts at 0 and the coordinate is the
    result's row. -/
theorem opIdx_1 : (GatherDims.operandIdx gd (ix3 n h w) idx (1 : Fin 3)).val = h.val := by
  show GatherDims.start _ _ _ _ + GatherDims.batchCoord _ _ _ + GatherDims.offCoord _ _ _ = _
  rw [GatherDims.batchCoord_eq_zero _ _ _ List.not_mem_nil]
  unfold GatherDims.start
  rw [dif_neg (show ¬ (1 : Fin 3) ∈ (GatherDims.startIndexMap gd) by decide)]
  unfold GatherDims.offCoord
  rw [dif_pos (show (1 : Fin 3) ∈ (GatherDims.sKept gd) by decide)]
  simp only [Nat.add_zero, Nat.zero_add]
  rfl

/-- Axis 2 likewise: the result's column. -/
theorem opIdx_2 : (GatherDims.operandIdx gd (ix3 n h w) idx (2 : Fin 3)).val = w.val := by
  show GatherDims.start _ _ _ _ + GatherDims.batchCoord _ _ _ + GatherDims.offCoord _ _ _ = _
  rw [GatherDims.batchCoord_eq_zero _ _ _ List.not_mem_nil]
  unfold GatherDims.start
  rw [dif_neg (show ¬ (2 : Fin 3) ∈ (GatherDims.startIndexMap gd) by decide)]
  unfold GatherDims.offCoord
  rw [dif_pos (show (2 : Fin 3) ∈ (GatherDims.sKept gd) by decide)]
  simp only [Nat.add_zero, Nat.zero_add]
  rfl

/-- The gather at (n, h, w) reads the table at (idx(n), h, w) when idx(n) is below 128. -/
theorem gather_row {α : Type} (x : S128x200x304.Idx → α) (hlt : (idx (ixC n)).toNat < 128) :
    Host.gather gd x idx (ix3 n h w) = x (ix3 (⟨(idx (ixC n)).toNat, hlt⟩ : Fin 128) h w) := by
  unfold Host.gather
  congr 1
  funext a
  refine Fin.ext ?_
  match a with
  | ⟨0, _⟩ => exact opIdx_0 idx n h w hlt
  | ⟨1, _⟩ => exact opIdx_1 idx n h w
  | ⟨2, _⟩ => exact opIdx_2 idx n h w

end Gather

variable (x1 x2 : (⟨S128x200x304, .f32⟩ : BufTy).Contents (Elt Ideal)) (x4 x5 : (⟨S500, .i32⟩ : BufTy).Contents (Elt Ideal))

/-- The pixel of the flattened row that picture position (h, w) is. -/
abbrev pix (h : Fin 200) (w : Fin 304) : Fin 60800 := ⟨h.val * 304 + w.val, by have := h.isLt; have := w.isLt; omega⟩

/-! ## The start indices: a word below 128 is not negative, so the wrap-around leaves it alone -/

/-- A word below 128 does not compare below zero as a signed integer. -/
theorem slt_zero_of_lt (v : BitVec 32) (hv : v.toNat < 128) : IntOp.cmpi .slt v 0#32 = 0#1 :=
  eq_zero_of_ne_one fun h1 => by
    have := (Idealize.ShloMosaic.StableHlo.Predicate.slt_iff_toNat (a := v) (b := 0#32) (by omega) (by decide)).mp h1
    simp at this

/-- The first table's start index of candidate n is the index word itself. -/
theorem start_x (n : Fin 500) (hx : (x4 (ix1 n)).toNat < 128) : val_main_v5 (F := Ideal) x4 (ixC n) = x4 (ix1 n) := by
  rw [val_main_v5_apply]
  have e : idx_main_v5 (ixC n) = ix1 n := by
    funext a
    match a with
    | ⟨0, _⟩ => rfl
  rw [e, val_main_v4_apply, val_main_v1_apply, val_main_v0_apply, val_main_c_apply, slt_zero_of_lt _ hx, select_zero]

/-- The second table's likewise. -/
theorem start_y (n : Fin 500) (hy : (x5 (ix1 n)).toNat < 128) : val_main_v12 (F := Ideal) x5 (ixC n) = x5 (ix1 n) := by
  rw [val_main_v12_apply]
  have e : idx_main_v12 (ixC n) = ix1 n := by
    funext a
    match a with
    | ⟨0, _⟩ => rfl
  rw [e, val_main_v11_apply, val_main_v8_apply, val_main_v7_apply, val_main_c_1_apply, slt_zero_of_lt _ hy, select_zero]

/-- A table read at row v (below 128), picture position (h, w), is the chosen row's pixel 304·h + w. -/
theorem rows_pix (tab : S128x200x304.Idx → EReal) (ixs : S500.Idx → BitVec 32) (n : Fin 500) (h : Fin 200) (w : Fin 304)
    (v : Nat) (hv : v < 128) (e : v = (ixs (ix1 n)).toNat) :
    tab (ix3 (⟨v, hv⟩ : Fin 128) h w) = Cert.Nms.rows tab ixs n (pix h w) := by
  unfold Cert.Nms.rows
  congr 1
  funext a
  refine Fin.ext ?_
  have := h.isLt; have := w.isLt
  match a with
  | ⟨0, _⟩ => show v = (ixs (ix1 n)).toNat % 128; omega
  | ⟨1, _⟩ => show h.val = (h.val * 304 + w.val) / 304; omega
  | ⟨2, _⟩ => show w.val = (h.val * 304 + w.val) % 304; omega

/-- The first gather at (n, h, w). -/
theorem v6_apply (n : Fin 500) (h : Fin 200) (w : Fin 304) (hx : (x4 (ix1 n)).toNat < 128) :
    val_main_v6 (F := Ideal) x1 x4 (ix3 n h w) = Cert.Nms.rows x1 x4 n (pix h w) := by
  unfold val_main_v6
  have hs := start_x x4 n hx
  generalize val_main_v5 (F := Ideal) x4 = idx at hs ⊢
  rw [gather_row idx n h w x1 (by rw [hs]; exact hx)]
  exact rows_pix x1 x4 n h w _ _ (congrArg BitVec.toNat hs)

/-- The second gather at (n, h, w). -/
theorem v13_apply (n : Fin 500) (h : Fin 200) (w : Fin 304) (hy : (x5 (ix1 n)).toNat < 128) :
    val_main_v13 (F := Ideal) x2 x5 (ix3 n h w) = Cert.Nms.rows x2 x5 n (pix h w) := by
  unfold val_main_v13
  have hs := start_y x5 n hy
  generalize val_main_v12 (F := Ideal) x5 = idx at hs ⊢
  rw [gather_row idx n h w x2 (by rw [hs]; exact hy)]
  exact rows_pix x2 x5 n h w _ _ (congrArg BitVec.toNat hs)

/-! ## The masks -/

/-- The reference's soft mask at (n, h, w). -/
theorem soft_apply (hx : ∀ n : Fin 500, (x4 (ix1 n)).toNat < 128) (hy : ∀ n : Fin 500, (x5 (ix1 n)).toNat < 128)
    (n : Fin 500) (h : Fin 200) (w : Fin 304) :
    val_main_v14 (F := Ideal) x1 x2 x4 x5 (ix3 n h w) = Cert.Nms.soft (Cert.Nms.rows x1 x4) (Cert.Nms.rows x2 x5) n (pix h w) := by
  rw [val_main_v14_apply, v6_apply x1 x4 n h w (hx n), v13_apply x2 x5 n h w (hy n), Ideal.mulf_def]
  rfl

/-- A truth bit converted to a float (read unsigned) is 1 or 0. -/
theorem uitofp_bit (b : BitVec 1) : FloatOps.uitofp (F := Ideal) .f32 b = Cert.Nms.bit b := by
  rcases BitVec.eq_zero_or_eq_one b with h0 | h1
  · subst h0
    rw [Cert.Nms.bit_zero]
    show (((0#1 : BitVec 1).toNat : ℝ) : EReal) = 0
    simp
  · subst h1
    rw [Cert.Nms.bit_one]
    show (((1#1 : BitVec 1).toNat : ℝ) : EReal) = 1
    simp

/-- The reference's hard mask at (n, h, w). -/
theorem hard_apply (hx : ∀ n : Fin 500, (x4 (ix1 n)).toNat < 128) (hy : ∀ n : Fin 500, (x5 (ix1 n)).toNat < 128)
    (n : Fin 500) (h : Fin 200) (w : Fin 304) :
    val_main_v17 (F := Ideal) x1 x2 x4 x5 (ix3 n h w) = Cert.Nms.hard (Cert.Nms.rows x1 x4) (Cert.Nms.rows x2 x5) n (pix h w) := by
  rw [val_main_v17_apply, val_main_v16_apply, val_main_v15_apply, val_main_cst_apply, soft_apply x1 x2 x4 x5 hx hy,
    uitofp_bit, Ideal.cmpf_def]
  rfl

/-! ## Sums over the two picture axes -/

section Sums

local notation "rd" => reducesTo_S500x200x304_S500_d1_2

/-- Dropping the two picture axes of (n, h, w) leaves n. -/
theorem drop_ix3 (n : Fin 500) (h : Fin 200) (w : Fin 304) : Shape.ReducesTo.drop rd (ix3 n h w) = ix1 n := by
  funext b
  match b with
  | ⟨0, _⟩ => rfl

/-- The host's sum over axes 1 and 2 at n: the indices that drop to n are exactly the (n, h, w), so the sum over them
    is the double sum over h and w. The sum over the filtered index set is written as the sum of an indicator over all
    indices, that as a triple sum over the coordinates, and only the term a = n of the outer sum survives. -/
theorem hostReduceAdd_two (x : S500x200x304.Idx → EReal) (init : EReal) (n : Fin 500) :
    Ideal.hostReduceAdd rd x init (ix1 n) = init + ∑ h : Fin 200, ∑ w : Fin 304, x (ix3 n h w) := by
  unfold Ideal.hostReduceAdd
  congr 1
  rw [Finset.sum_filter, Cert.Hand.sum_idx3, Finset.sum_eq_single n]
  · refine Finset.sum_congr rfl fun h _ => Finset.sum_congr rfl fun w _ => ?_
    rw [if_pos (drop_ix3 n h w)]
  · intro a _ hne
    refine Finset.sum_eq_zero fun h _ => Finset.sum_eq_zero fun w _ => ?_
    rw [if_neg]
    rw [drop_ix3]
    intro e
    exact hne (congrFun e 0)
  · intro hn
    exact absurd (Finset.mem_univ n) hn

/-- Picture positions and pixels of the flattened row correspond: (h, w) ↦ 304·h + w, with h = p / 304 and
    w = p % 304 back. -/
def pixEquiv : Fin 200 × Fin 304 ≃ Fin 60800 where
  toFun q := pix q.1 q.2
  invFun p := (⟨p.val / 304, by have := p.isLt; omega⟩, ⟨p.val % 304, Nat.mod_lt _ (by decide)⟩)
  left_inv q := by
    obtain ⟨⟨a, ha⟩, ⟨b, hb⟩⟩ := q
    refine Prod.ext (Fin.ext ?_) (Fin.ext ?_) <;> simp only <;> omega
  right_inv p := by
    obtain ⟨v, hv⟩ := p
    refine Fin.ext ?_
    simp only
    omega

/-- A double sum over the picture is the sum over the flattened row. -/
theorem sum_pix {M : Type*} [AddCommMonoid M] (f : Fin 60800 → M) :
    ∑ h : Fin 200, ∑ w : Fin 304, f (pix h w) = ∑ p : Fin 60800, f p := by
  rw [← Equiv.sum_comp pixEquiv f, Fintype.sum_prod_type]
  rfl

/-- The reference's area vector. -/
theorem area_eq (hx : ∀ n : Fin 500, (x4 (ix1 n)).toNat < 128) (hy : ∀ n : Fin 500, (x5 (ix1 n)).toNat < 128) (n : Fin 500) :
    val_main_v18 (F := Ideal) x1 x2 x4 x5 (ix1 n) = Cert.Nms.area (Cert.Nms.rows x1 x4) (Cert.Nms.rows x2 x5) n := by
  have hv : ∀ (h : Fin 200) (w : Fin 304), val_main_v17 (F := Ideal) x1 x2 x4 x5 (ix3 n h w)
      = Cert.Nms.hard (Cert.Nms.rows x1 x4) (Cert.Nms.rows x2 x5) n (pix h w) := fun h w => hard_apply x1 x2 x4 x5 hx hy n h w
  unfold val_main_v18
  generalize val_main_v17 (F := Ideal) x1 x2 x4 x5 = y at hv ⊢
  unfold Host.reduceAdd
  rw [Ideal.hostReduceAdd_def, hostReduceAdd_two, val_main_cst_3_apply, Ideal.ofBits_def, Ideal.ofBits_zero_f32, zero_add]
  simp only [hv]
  exact sum_pix fun p => Cert.Nms.hard (Cert.Nms.rows x1 x4) (Cert.Nms.rows x2 x5) n p

/-- The reference's numerator vector. -/
theorem numer_eq (hx : ∀ n : Fin 500, (x4 (ix1 n)).toNat < 128) (hy : ∀ n : Fin 500, (x5 (ix1 n)).toNat < 128) (n : Fin 500) :
    val_main_v20 (F := Ideal) x1 x2 x4 x5 (ix1 n) = Cert.Nms.numer (Cert.Nms.rows x1 x4) (Cert.Nms.rows x2 x5) n := by
  have hv : ∀ (h : Fin 200) (w : Fin 304), val_main_v19 (F := Ideal) x1 x2 x4 x5 (ix3 n h w)
      = Cert.Nms.soft (Cert.Nms.rows x1 x4) (Cert.Nms.rows x2 x5) n (pix h w)
        * Cert.Nms.hard (Cert.Nms.rows x1 x4) (Cert.Nms.rows x2 x5) n (pix h w) := fun h w => by
    rw [val_main_v19_apply, soft_apply x1 x2 x4 x5 hx hy, hard_apply x1 x2 x4 x5 hx hy, Ideal.mulf_def]
  unfold val_main_v20
  generalize val_main_v19 (F := Ideal) x1 x2 x4 x5 = y at hv ⊢
  unfold Host.reduceAdd
  rw [Ideal.hostReduceAdd_def, hostReduceAdd_two, val_main_cst_4_apply, Ideal.ofBits_def, Ideal.ofBits_zero_f32, zero_add]
  simp only [hv]
  exact sum_pix fun p => Cert.Nms.soft (Cert.Nms.rows x1 x4) (Cert.Nms.rows x2 x5) n p
    * Cert.Nms.hard (Cert.Nms.rows x1 x4) (Cert.Nms.rows x2 x5) n p

end Sums

/-! ## The intersection matrix -/

/-- The picture position of pixel k. -/
abbrev rowOf (k : Fin 60800) : Fin 200 := ⟨k.val / 304, by have := k.isLt; omega⟩
abbrev colOf (k : Fin 60800) : Fin 304 := ⟨k.val % 304, Nat.mod_lt _ (by decide)⟩

theorem pix_rowOf_colOf (k : Fin 60800) : pix (rowOf k) (colOf k) = k := by
  refine Fin.ext ?_
  show k.val / 304 * 304 + k.val % 304 = k.val
  omega

/-- The flattening reads entry (i, k) of the 500 × 60800 matrix at (i, k / 304, k % 304). -/
theorem idx_v25_ix2 (i : Fin 500) (k : Fin 60800) : idx_main_v25 (ix2 i k) = ix3 i (rowOf k) (colOf k) := by
  funext a
  refine Fin.ext ?_
  have := i.isLt; have := k.isLt
  match a with
  | ⟨0, _⟩ => show (i.val * 60800 + k.val) / 60800 = i.val; omega
  | ⟨1, _⟩ => show (i.val * 60800 + k.val) / 304 % 200 = k.val / 304; omega
  | ⟨2, _⟩ => show (i.val * 60800 + k.val) % 304 = k.val % 304; omega

/-- The flattened hard masks at (i, k). -/
theorem v25_ix2 (hx : ∀ n : Fin 500, (x4 (ix1 n)).toNat < 128) (hy : ∀ n : Fin 500, (x5 (ix1 n)).toNat < 128)
    (i : Fin 500) (k : Fin 60800) :
    val_main_v25 (F := Ideal) x1 x2 x4 x5 (ix2 i k) = Cert.Nms.hard (Cert.Nms.rows x1 x4) (Cert.Nms.rows x2 x5) i k := by
  rw [val_main_v25_apply, idx_v25_ix2, hard_apply x1 x2 x4 x5 hx hy, pix_rowOf_colOf]

/-- The reference's intersection matrix. -/
theorem inter_eq (hx : ∀ n : Fin 500, (x4 (ix1 n)).toNat < 128) (hy : ∀ n : Fin 500, (x5 (ix1 n)).toNat < 128) (i j : Fin 500) :
    val_main_v27 (F := Ideal) x1 x2 x4 x5 (ix2 i j) = Cert.Nms.inter (Cert.Nms.rows x1 x4) (Cert.Nms.rows x2 x5) i j := by
  rw [val_main_v27_apply]
  unfold Cert.Nms.inter
  refine Finset.sum_congr rfl fun k _ => ?_
  have el : lidx_main_v27 (ix2 i j) k = ix2 i k := by
    funext a
    match a with
    | ⟨0, _⟩ => rfl
    | ⟨1, _⟩ => rfl
  have er : idx_main_v26 (ridx_main_v27 (ix2 i j) k) = ix2 j k := by
    funext a
    match a with
    | ⟨0, _⟩ => rfl
    | ⟨1, _⟩ => rfl
  rw [val_main_v26_apply, el, er, v25_ix2 x1 x2 x4 x5 hx hy, v25_ix2 x1 x2 x4 x5 hx hy]

end Cert.ReferenceIdeal.Masks

end
-- ==== Proof.RTail.lean ====
/-
  The reference's tail read at an index over the extended reals: from its intersection matrix, its area vector and the
  labels it computes the column decay of the specification. Its upper triangle is a selection (zero on and below the
  diagonal), its column maximum and minimum are folds from −∞ and +∞.
-/
import proofs.«405678_j60876866453719_2_alg».proof.Proof.RefStages
import proofs.«405678_j60876866453719_2_alg».proof.Proof.Spec
import Idealize.ShloMosaic.Lib.StableHlo.Predicate

noncomputable section

open Idealize.ShloMosaic Idealize.ShloMosaic.ValueIdx

namespace Cert.ReferenceIdeal.Tail

open Cert.ReferenceIdeal Cert.ReferenceIdeal.Gen Cert.ReferenceIdeal.Read

variable (x1 x2 : (⟨S128x200x304, .f32⟩ : BufTy).Contents (Elt Ideal)) (x3 x4 x5 : (⟨S500, .i32⟩ : BufTy).Contents (Elt Ideal))

/-- The intersection-over-union matrix. -/
theorem iou_apply (i k : Fin 500) :
    val_main_v36 (F := Ideal) x1 x2 x4 x5 (ix2 i k)
      = Cert.Nms.iou (fun i k => val_main_v27 (F := Ideal) x1 x2 x4 x5 (ix2 i k))
          (fun i => val_main_v18 (F := Ideal) x1 x2 x4 x5 (ix1 i)) i k := by
  have e30 : idx_main_v28 (idx_main_v30 (ix2 i k)) = ix1 i := funext fun a => Fin.ext (by match a with | ⟨0, _⟩ => rfl)
  have e31 : idx_main_v29 (idx_main_v31 (ix2 i k)) = ix1 k := funext fun a => Fin.ext (by match a with | ⟨0, _⟩ => rfl)
  rw [val_main_v36_apply, val_main_v35_apply, val_main_v34_apply, val_main_v33_apply, val_main_v32_apply,
    val_main_v30_apply, val_main_v31_apply, val_main_v28_apply, val_main_v29_apply, val_main_cst_6_apply, e30, e31]
  rfl

/-- Two words made from numbers below 500: the first is at least the second exactly when the numbers are so. -/
theorem sge_small (a b : Nat) (ha : a < 500) (hb : b < 500) :
    IntOp.cmpi .sge (IntOp.addi (BitVec.ofNat 32 a) 0#32) (BitVec.ofNat 32 b) = 1#1 ↔ b ≤ a := by
  have e : IntOp.addi (BitVec.ofNat 32 a) 0#32 = BitVec.ofNat 32 a := by
    unfold IntOp.addi; exact BitVec.add_zero _
  rw [e, Idealize.ShloMosaic.StableHlo.Predicate.sge_iff_toNat (by rw [BitVec.toNat_ofNat]; omega) (by rw [BitVec.toNat_ofNat]; omega),
    BitVec.toNat_ofNat, BitVec.toNat_ofNat, Nat.mod_eq_of_lt (by omega), Nat.mod_eq_of_lt (by omega)]

/-- A selection between zero and a value on the lower-triangle bit keeps the value strictly above the diagonal. -/
theorem select_tri (i k : Fin 500) (v : EReal) :
    Scalar.select (IntOp.cmpi .sge (IntOp.addi (BitVec.ofNat 32 i.val) 0#32) (BitVec.ofNat 32 k.val)) (0 : EReal) v
      = if i < k then v else 0 := by
  by_cases h : i < k
  · rw [if_pos h]
    have hb : IntOp.cmpi .sge (IntOp.addi (BitVec.ofNat 32 i.val) 0#32) (BitVec.ofNat 32 k.val) = 0#1 :=
      eq_zero_of_ne_one fun e => by
        have := (sge_small i.val k.val i.isLt k.isLt).1 e
        exact absurd h (by rw [Fin.lt_def]; omega)
    rw [hb, select_zero]
  · rw [if_neg h]
    have hb : IntOp.cmpi .sge (IntOp.addi (BitVec.ofNat 32 i.val) 0#32) (BitVec.ofNat 32 k.val) = 1#1 :=
      (sge_small i.val k.val i.isLt k.isLt).2 (by rw [Fin.lt_def] at h; omega)
    rw [hb, select_one]

/-- The upper triangle of the intersection-over-union matrix. -/
theorem triu_iou_apply (i k : Fin 500) :
    val_main_v37 (F := Ideal) x1 x2 x4 x5 (ix2 i k)
      = if i < k then val_main_v36 (F := Ideal) x1 x2 x4 x5 (ix2 i k) else 0 := by
  rw [val_main_v37_apply, val_main_call0_v4_apply, val_main_call0_v2_apply, val_main_call0_v0_apply, val_main_call0_v1_apply,
    val_main_call0_c_apply, val_main_call0_v3_apply, val_main_call0_v5_apply, val_main_call0_cst_apply, Ideal.ofBits_def,
    Ideal.ofBits_zero_f32]
  exact select_tri i k _

/-- A truth bit read as an unsigned number is the bit's number. -/
theorem uitofp_bit (b : BitVec 1) : FloatOps.uitofp (F := Ideal) .f32 b = Cert.Nms.bit b := by
  rcases BitVec.eq_zero_or_eq_one b with h | h
  · subst h; rw [Cert.Nms.bit_zero]; show (((0#1 : BitVec 1).toNat : ℝ) : EReal) = 0; simp
  · subst h; rw [Cert.Nms.bit_one]; show (((1#1 : BitVec 1).toNat : ℝ) : EReal) = 1; simp

/-- The upper triangle of the label-equality matrix. -/
theorem triu_same_apply (i k : Fin 500) :
    val_main_v44 (F := Ideal) x3 (ix2 i k)
      = if i < k then Cert.Nms.bit (IntOp.cmpi .eq (x3 (ix1 i)) (x3 (ix1 k))) else 0 := by
  have e40 : idx_main_v38 (idx_main_v40 (ix2 i k)) = ix1 i := funext fun a => Fin.ext (by match a with | ⟨0, _⟩ => rfl)
  have e41 : idx_main_v39 (idx_main_v41 (ix2 i k)) = ix1 k := funext fun a => Fin.ext (by match a with | ⟨0, _⟩ => rfl)
  rw [val_main_v44_apply, val_main_call1_v4_apply, val_main_call1_v2_apply, val_main_call1_v0_apply, val_main_call1_v1_apply,
    val_main_call1_c_apply, val_main_call1_v3_apply, val_main_call1_v5_apply, val_main_call1_cst_apply, Ideal.ofBits_def,
    Ideal.ofBits_zero_f32, val_main_v43_apply, val_main_v42_apply, val_main_v40_apply, val_main_v41_apply, val_main_v38_apply,
    val_main_v39_apply, e40, e41, uitofp_bit]
  exact select_tri i k _

/-- The same-class overlap matrix. -/
theorem overlap_apply (i k : Fin 500) :
    val_main_v45 (F := Ideal) x1 x2 x3 x4 x5 (ix2 i k)
      = Cert.Nms.overlap (fun i k => val_main_v27 (F := Ideal) x1 x2 x4 x5 (ix2 i k))
          (fun i => val_main_v18 (F := Ideal) x1 x2 x4 x5 (ix1 i)) (fun i => x3 (ix1 i)) i k := by
  rw [val_main_v45_apply, triu_iou_apply, triu_same_apply, iou_apply, Ideal.mulf_def]
  unfold Cert.Nms.overlap
  by_cases h : i < k
  · rw [if_pos h, if_pos h, if_pos h]
  · rw [if_neg h, if_neg h, if_neg h, mul_zero]

/-- The shape fact that names the index inserted on the reduced axis. -/
theorem reduces_d0 : S500x500.Reduces [0] S500 := by decide

/-- The column index `t` with row `k` put back is (k, t). -/
theorem lift_ix2 (t : Fin 500) (k : Fin (S500x500.size 0)) :
    reduces_d0.lift (ix1 t) k = ix2 (⟨k.val, k.isLt⟩ : Fin 500) t := by
  funext c; apply Fin.ext
  fin_cases c <;> rfl

/-- A reduction with a maximum body down the rows, from the −∞ pattern, is at column `t` the maximum of that column. -/
theorem reduce_max_col (x : S500x500.Idx → Ideal .f32) (t : Fin 500) :
    Host.reduce FloatOps.maximumf x (val_main_cst_7 (F := Ideal)) reducesTo_S500x500_S500_d0 h_S_ (ix1 t)
      = (Finset.univ : Finset (Fin 500)).fold max Cert.Nms.negInf (fun i => x (ix2 i t)) := by
  rw [Host.reduce_eq_fold_single FloatOps.maximumf x _ reducesTo_S500x500_S500_d0 reduces_d0 h_S_]
  have hf : (x ∘ reduces_d0.lift (ix1 t)) = fun k : Fin 500 => x (ix2 k t) := funext fun k => congrArg x (lift_ix2 t k)
  exact congrArg (fun f => Finset.fold max Cert.Nms.negInf f (Finset.univ : Finset (Fin 500))) hf

/-- A reduction with a minimum body down the rows, from the +∞ pattern, is at column `t` the minimum of that column. -/
theorem reduce_min_col (x : S500x500.Idx → Ideal .f32) (t : Fin 500) :
    Host.reduce FloatOps.minimumf x (val_main_cst_10 (F := Ideal)) reducesTo_S500x500_S500_d0 h_S_ (ix1 t)
      = (Finset.univ : Finset (Fin 500)).fold min Cert.Nms.posInf (fun i => x (ix2 i t)) := by
  rw [Host.reduce_eq_fold_single FloatOps.minimumf x _ reducesTo_S500x500_S500_d0 reduces_d0 h_S_]
  have hf : (x ∘ reduces_d0.lift (ix1 t)) = fun k : Fin 500 => x (ix2 k t) := funext fun k => congrArg x (lift_ix2 t k)
  exact congrArg (fun f => Finset.fold min Cert.Nms.posInf f (Finset.univ : Finset (Fin 500))) hf

/-- The compensation vector: the column maxima of the overlap matrix. -/
theorem comp_apply (k : Fin 500) :
    val_main_v46 (F := Ideal) x1 x2 x3 x4 x5 (ix1 k)
      = Cert.Nms.comp (fun i k => val_main_v27 (F := Ideal) x1 x2 x4 x5 (ix2 i k))
          (fun i => val_main_v18 (F := Ideal) x1 x2 x4 x5 (ix1 i)) (fun i => x3 (ix1 i)) k := by
  unfold val_main_v46 Cert.Nms.comp
  rw [reduce_max_col]
  exact congrArg (fun f => Finset.fold max Cert.Nms.negInf f (Finset.univ : Finset (Fin 500)))
    (funext fun i => overlap_apply x1 x2 x3 x4 x5 i k)

/-- The ratio matrix under the column minimum. -/
theorem ratio_apply (i k : Fin 500) :
    val_main_v57 (F := Ideal) x1 x2 x3 x4 x5 (ix2 i k)
      = Ideal.div (Ideal.exp (Cert.Nms.negTwo * (val_main_v45 (F := Ideal) x1 x2 x3 x4 x5 (ix2 i k) * val_main_v45 (F := Ideal) x1 x2 x3 x4 x5 (ix2 i k))))
          (Ideal.exp (Cert.Nms.negTwo * (val_main_v46 (F := Ideal) x1 x2 x3 x4 x5 (ix1 i) * val_main_v46 (F := Ideal) x1 x2 x3 x4 x5 (ix1 i)))) := by
  have e56 : idx_main_v55 (idx_main_v56 (ix2 i k)) = ix1 i := funext fun a => Fin.ext (by match a with | ⟨0, _⟩ => rfl)
  rw [val_main_v57_apply, val_main_v50_apply, val_main_v49_apply, val_main_v48_apply, val_main_cst_8_apply, val_main_v47_apply,
    val_main_v56_apply, val_main_v55_apply, e56, val_main_v54_apply, val_main_v53_apply, val_main_v52_apply, val_main_cst_9_apply,
    val_main_v51_apply]
  simp only [Ideal.hostDivf_def, Ideal.hostUnary_exp_def, Ideal.mulf_def, Ideal.ofBits_def, Cert.Nms.negTwo]

/-- The reference's decay vector at column `j` is the specification's decay of ITS matrix, ITS areas and the labels. -/
theorem decay_apply (j : Fin 500) :
    val_main_v58 (F := Ideal) x1 x2 x3 x4 x5 (ix1 j)
      = Cert.Nms.decay (fun i k => val_main_v27 (F := Ideal) x1 x2 x4 x5 (ix2 i k))
          (fun i => val_main_v18 (F := Ideal) x1 x2 x4 x5 (ix1 i)) (fun i => x3 (ix1 i)) j := by
  unfold val_main_v58 Cert.Nms.decay
  rw [reduce_min_col]
  refine congrArg (fun f => Finset.fold min Cert.Nms.posInf f (Finset.univ : Finset (Fin 500))) (funext fun i => ?_)
  rw [ratio_apply, overlap_apply, comp_apply]

end Cert.ReferenceIdeal.Tail

end
-- ==== Proof.RResult.lean ====
/-
  The reference's result is the specification's, over the extended reals, when every index word is below 128: its last
  operations multiply the score by numerator / max (area, 1) and by the decay of its own intersection matrix, areas and
  labels, and those three are the specification's.
-/
import proofs.«405678_j60876866453719_2_alg».proof.Proof.RMasks
import proofs.«405678_j60876866453719_2_alg».proof.Proof.RTail

noncomputable section

open Idealize.ShloMosaic Idealize.ShloMosaic.ValueIdx

namespace Cert.ReferenceIdeal.Result

open Cert.ReferenceIdeal Cert.ReferenceIdeal.Gen Cert.ReferenceIdeal.Read

variable (x0 : (⟨S500, .f32⟩ : BufTy).Contents (Elt Ideal)) (x1 x2 : (⟨S128x200x304, .f32⟩ : BufTy).Contents (Elt Ideal))
  (x3 x4 x5 : (⟨S500, .i32⟩ : BufTy).Contents (Elt Ideal))

/-- The reference's result vector is the specification's. -/
theorem result_eq (hx : ∀ n : Fin 500, (x4 (ix1 n)).toNat < 128) (hy : ∀ n : Fin 500, (x5 (ix1 n)).toNat < 128) :
    val_main_v59 (F := Ideal) x0 x1 x2 x3 x4 x5 = Cert.Nms.result x0 x1 x2 x3 x4 x5 := by
  funext j
  obtain ⟨n, rfl⟩ : ∃ n : Fin 500, j = ix1 n := ⟨j 0, eq_ix1 j⟩
  rw [Cert.Nms.result_apply, val_main_v59_apply, val_main_v24_apply, val_main_v23_apply, val_main_v22_apply,
    val_main_v21_apply, val_main_cst_5_apply, Cert.ReferenceIdeal.Tail.decay_apply,
    Cert.ReferenceIdeal.Masks.area_eq x1 x2 x4 x5 hx hy, Cert.ReferenceIdeal.Masks.numer_eq x1 x2 x4 x5 hx hy,
    show (fun i k => val_main_v27 (F := Ideal) x1 x2 x4 x5 (ix2 i k))
        = Cert.Nms.inter (Cert.Nms.rows x1 x4) (Cert.Nms.rows x2 x5) from
      funext fun i => funext fun k => Cert.ReferenceIdeal.Masks.inter_eq x1 x2 x4 x5 hx hy i k,
    show (fun i => val_main_v18 (F := Ideal) x1 x2 x4 x5 (ix1 i))
        = Cert.Nms.area (Cert.Nms.rows x1 x4) (Cert.Nms.rows x2 x5) from
      funext (Cert.ReferenceIdeal.Masks.area_eq x1 x2 x4 x5 hx hy)]
  rfl

end Cert.ReferenceIdeal.Result

end
-- ==== Proof.PreRange.lean ====
/-
  What the precondition says of the two index vectors: every entry is a word below 128. The precondition is the
  conjunction of seven "for all entries" tests; the last four say, of each index vector, that every entry is ≥ 0 and
  < 128 as a signed 32-bit integer — together: the entry's unsigned value is below 128.
-/
import proofs.«405678_j60876866453719_2_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.Nms

open Cert.Pre_finite_inputs

/-- A word that is ≥ 0 and < 128 as a signed integer is below 128 as a natural number. -/
theorem toNat_lt_of_signed (w : BitVec 32) (h0 : IntOp.cmpi .sge w 0#32 = 1#1) (h1 : IntOp.cmpi .slt w 128#32 = 1#1) :
    w.toNat < 128 := by
  -- the two comparisons, read as inequalities between signed values
  have a0 : (0#32 : BitVec 32).toInt ≤ w.toInt := IntOp.cmpi_sge.1 h0
  have a1 : w.toInt < (128#32 : BitVec 32).toInt := IntOp.cmpi_slt.1 h1
  have z0 : (0#32 : BitVec 32).toInt = 0 := by decide
  have z1 : (128#32 : BitVec 32).toInt = 128 := by decide
  rw [z0] at a0
  rw [z1] at a1
  -- the signed value is the unsigned one, less 2^32 when the top bit is set; a nonnegative signed value rules the latter out
  have hlt := w.isLt
  rw [BitVec.toInt_eq_toNat_cond] at a0 a1
  split at a0 <;> omega

/-- The scalar shape has one index. -/
local instance subsingleton_S_Idx : Subsingleton S_.Idx := ⟨fun a b => funext fun d => d.elim0⟩

/-- A conjunction of two 1-bit vectors is 1 at an index exactly when both are. -/
theorem andi_apply_eq_one {s : Shape} (x y : IVec s 1) (i : s.Idx) : andi x y i = 1#1 ↔ x i = 1#1 ∧ y i = 1#1 :=
  IntOp.andi_eq_one

/-- Under the precondition every entry of the two index vectors is below 128. -/
theorem idx_lt_of_pre [Cert.Pre_finite_inputs.Facts] (a0 : FVec Ideal S500 .f32) (a1 a2 : FVec Ideal S128x200x304 .f32)
    (a3 a4 a5 : IVec S500 32)
    (h : Cert.Pre_finite_inputs.fn (F := Ideal) a0 a1 a2 a3 a4 a5 = fun _ => 1#1) :
    (∀ n : Fin 500, (a4 (ix1 n)).toNat < 128) ∧ (∀ n : Fin 500, (a5 (ix1 n)).toNat < 128) := by
  have e := congrFun h ix0
  dsimp only [Cert.Pre_finite_inputs.fn, Cert.Pre_finite_inputs.fn_part1] at e
  -- peel the last four tests off the conjunction; the three tests of the real-valued arguments stay closed
  obtain ⟨e, t7⟩ := (andi_apply_eq_one _ _ _).1 e
  obtain ⟨e, t6⟩ := (andi_apply_eq_one _ _ _).1 e
  obtain ⟨e, t5⟩ := (andi_apply_eq_one _ _ _).1 e
  obtain ⟨-, t4⟩ := (andi_apply_eq_one _ _ _).1 e
  -- each test is an "and" over all 500 entries that came out 1: every entry's comparison word is 1; the word an
  -- entry is compared with is the broadcast scalar, 0 or 128
  refine ⟨fun n => ?_, fun n => ?_⟩
  · exact toNat_lt_of_signed (a4 (ix1 n)) (Host.reduce_andi_all _ _ _ _ ix0 t4 (ix1 n))
      (Host.reduce_andi_all _ _ _ _ ix0 t5 (ix1 n))
  · exact toNat_lt_of_signed (a5 (ix1 n)) (Host.reduce_andi_all _ _ _ _ ix0 t6 (ix1 n))
      (Host.reduce_andi_all _ _ _ _ ix0 t7 (ix1 n))

end Cert.Nms

end
-- ==== Proof.lean ====
/-
  The kernel fuses a matrix non-maximum-suppression head: for 500 candidates it builds each candidate's soft mask as the
  product of two table rows chosen by index, thresholds it to a hard mask, sums areas, numerators and pairwise
  intersections over 60800 pixels, and from those computes a Gaussian decay per candidate and the rescored result.
  The reference gathers the chosen rows directly; the kernel multiplies one-hot matrices of the indices into the tables,
  tile by tile of 2432 pixels over 25 grid steps, accumulating the three sums, and computes the decay at the last step.

  Over the extended reals both compute the one function of Proof/Spec.lean, when every index word lies in 0 … 127
  (the range of the tables' first axis, which the precondition states):
  * a one-hot row times a table picks the indexed row, since 0·x = 0 and 1·x = x for every extended real
    (Proof/KValues.lean), which is what the reference's gather takes for an in-range index (Proof/RMasks.lean);
  * a sum over 60800 pixels is the sum of its 25 tile sums, and the sum over 200 × 304 picture positions
    (Proof/TileSums.lean, Proof/KValues.lean, Proof/RMasks.lean);
  * the kernel's upper-triangle mask as a 0/1 factor and the reference's as a selection give the same overlaps, and the
    column maximum and minimum are the same folds (Proof/KTail.lean, Proof/RTail.lean).
  The three frames are the generated ones (the reference's is its run with the result dropped), and the idealization
  rewrote nothing.
-/
import proofs.«405678_j60876866453719_2_alg».proof.Defs
import proofs.«405678_j60876866453719_2_alg».proof.Proof.Gen.Kernel
import proofs.«405678_j60876866453719_2_alg».proof.Proof.Gen.Kernel.Frame
import proofs.«405678_j60876866453719_2_alg».proof.Proof.Gen.KernelIdeal
import proofs.«405678_j60876866453719_2_alg».proof.Proof.Gen.KernelIdeal.Frame
import proofs.«405678_j60876866453719_2_alg».proof.Proof.Gen.ReferenceIdeal
import proofs.«405678_j60876866453719_2_alg».proof.Proof.Gen.Pre_finite_inputs
import proofs.«405678_j60876866453719_2_alg».proof.Proof.KValues
import proofs.«405678_j60876866453719_2_alg».proof.Proof.RResult
import proofs.«405678_j60876866453719_2_alg».proof.Proof.PreRange
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's result of the (agreeing) arguments: the kernel's accumulators and tail
    (Proof/KValues.lean) and the reference's stages (Proof/RResult.lean) are the same function, the index words being
    below 128 by the precondition (Proof/PreRange.lean). -/
theorem algebraic : Cert.algebraic_KernelIdeal_ReferenceIdeal := by
  intro m ρ m' ρ' hpre hagree
  have hr := fun c : Dev Cert.KernelIdeal.nD => Cert.Nms.idx_lt_of_pre _ _ _ _ _ _ (hpre c)
  refine ⟨fun c => Cert.Nms.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Values.kres_eq m (fun c n => (hr c).1 n) (fun c n => (hr c).2 n) c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, (hagree c).1, (hagree c).2.1, (hagree c).2.2.1, (hagree c).2.2.2.1,
      (hagree c).2.2.2.2.1, (hagree c).2.2.2.2.2]
    exact Cert.ReferenceIdeal.Result.result_eq _ _ _ _ _ _ (hr c).1 (hr c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
